-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v36) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_v83) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x192x2 : Shape := ⟨3, ![1024, 192, 2]⟩
abbrev S1x192x192 : Shape := ⟨3, ![1, 192, 192]⟩
abbrev S_ : Shape := ⟨0, ![]⟩

class Facts : Prop where
  bcast_S_S1024x192x2 : S_.BroadcastsInDim S1024x192x2 (![] : Fin 0 → Fin S1024x192x2.rank)
  reducesTo_S1024x192x2_S_d0_1_2 : S1024x192x2.ReducesTo [0, 1, 2] S_
  h_S_ : 0 < S_.numel

variable [Facts]

def fn_part1 {F : FTy → Type} [FloatOps F] (main_v13 : IVec S_ 1) (main_v16 : IVec S1024x192x2 1) : IVec S_ 1 :=
  let main_c_5 : IVec S_ 1 := constantI S_ 1 1#1
  let main_v17 : IVec S_ 1 := (fun x v => Host.reduce IntOp.andi x v reducesTo_S1024x192x2_S_d0_1_2 h_S_) main_v16 main_c_5
  let main_v18 : IVec S_ 1 := andi main_v13 main_v17
  main_v18

def fn {F : FTy → Type} [FloatOps F] (main_arg0 : FVec F S1024x192x2 .f32) (main_arg1 : FVec F S1024x192x2 .f32) (main_arg2 : FVec F S1024x192x2 .f32) (main_arg3 : FVec F S1024x192x2 .f32) (main_arg4 : IVec S1x192x192 32) : IVec S_ 1 :=
  let main_v0 : FVec F S1024x192x2 .f32 := Host.absf main_arg0
  let main_cst : FVec F S_ .f32 := constant S_ .f32 0x7F800000#32
  let main_v1 : FVec F S1024x192x2 .f32 := broadcastInDim S1024x192x2 ![] bcast_S_S1024x192x2 main_cst
  let main_v2 : IVec S1024x192x2 1 := cmpf .olt main_v0 main_v1
  let main_c : IVec S_ 1 := constantI S_ 1 1#1
  let main_v3 : IVec S_ 1 := (fun x v => Host.reduce IntOp.andi x v reducesTo_S1024x192x2_S_d0_1_2 h_S_) main_v2 main_c
  let main_v4 : FVec F S1024x192x2 .f32 := Host.absf main_arg1
  let main_cst_0 : FVec F S_ .f32 := constant S_ .f32 0x7F800000#32
  let main_v5 : FVec F S1024x192x2 .f32 := broadcastInDim S1024x192x2 ![] bcast_S_S1024x192x2 main_cst_0
  let main_v6 : IVec S1024x192x2 1 := cmpf .olt main_v4 main_v5
  let main_c_1 : IVec S_ 1 := constantI S_ 1 1#1
  let main_v7 : IVec S_ 1 := (fun x v => Host.reduce IntOp.andi x v reducesTo_S1024x192x2_S_d0_1_2 h_S_) main_v6 main_c_1
  let main_v8 : IVec S_ 1 := andi main_v3 main_v7
  let main_v9 : FVec F S1024x192x2 .f32 := Host.absf main_arg2
  let main_cst_2 : FVec F S_ .f32 := constant S_ .f32 0x7F800000#32
  let main_v10 : FVec F S1024x192x2 .f32 := broadcastInDim S1024x192x2 ![] bcast_S_S1024x192x2 main_cst_2
  let main_v11 : IVec S1024x192x2 1 := cmpf .olt main_v9 main_v10
  let main_c_3 : IVec S_ 1 := constantI S_ 1 1#1
  let main_v12 : IVec S_ 1 := (fun x v => Host.reduce IntOp.andi x v reducesTo_S1024x192x2_S_d0_1_2 h_S_) main_v11 main_c_3
  let main_v13 : IVec S_ 1 := andi main_v8 main_v12
  let main_v14 : FVec F S1024x192x2 .f32 := Host.absf main_arg3
  let main_cst_4 : FVec F S_ .f32 := constant S_ .f32 0x7F800000#32
  let main_v15 : FVec F S1024x192x2 .f32 := broadcastInDim S1024x192x2 ![] bcast_S_S1024x192x2 main_cst_4
  let main_v16 : IVec S1024x192x2 1 := cmpf .olt main_v14 main_v15
  fn_part1 (F := F) main_v13 main_v16
-- ==== Kernel.lean ====
abbrev S1024x192x2 : Shape := ⟨3, ![1024, 192, 2]⟩
abbrev S1x192x192 : Shape := ⟨3, ![1, 192, 192]⟩
abbrev S1024x192x1 : Shape := ⟨3, ![1024, 192, 1]⟩
abbrev S1024x192 : Shape := ⟨2, ![1024, 192]⟩
abbrev S2x192x192 : Shape := ⟨3, ![2, 192, 192]⟩
abbrev S2x1x1 : Shape := ⟨3, ![2, 1, 1]⟩
abbrev S8x192 : Shape := ⟨2, ![8, 192]⟩
abbrev S1x1x1 : Shape := ⟨3, ![1, 1, 1]⟩
abbrev S192x192 : Shape := ⟨2, ![192, 192]⟩
abbrev S1x1 : Shape := ⟨2, ![1, 1]⟩
abbrev S8x192x1 : Shape := ⟨3, ![8, 192, 1]⟩
abbrev S8x1x192 : Shape := ⟨3, ![8, 1, 192]⟩
abbrev S8x192x192 : Shape := ⟨3, ![8, 192, 192]⟩
abbrev S8 : Shape := ⟨1, ![8]⟩
abbrev S1x8 : Shape := ⟨2, ![1, 8]⟩
abbrev S1 : Shape := ⟨1, ![1]⟩
abbrev S_ : Shape := ⟨0, ![]⟩

abbrev nBuf : Space → Nat
  | .hbm => 82
  | .vmem => 28
  | .smem => 0
  | _ => 0

abbrev bufTy : (tb : Table) → Fin (tcTables nBuf tb) → BufTy
  | .hbm, ⟨0, _⟩ => ⟨S1024x192x2, .f32⟩
  | .hbm, ⟨1, _⟩ => ⟨S1024x192x2, .f32⟩
  | .hbm, ⟨2, _⟩ => ⟨S1024x192x2, .f32⟩
  | .hbm, ⟨3, _⟩ => ⟨S1024x192x2, .f32⟩
  | .hbm, ⟨4, _⟩ => ⟨S1x192x192, .i32⟩
  | .hbm, ⟨5, _⟩ => ⟨S1024x192x1, .f32⟩
  | .hbm, ⟨6, _⟩ => ⟨S1024x192, .f32⟩
  | .hbm, ⟨7, _⟩ => ⟨S1024x192x1, .f32⟩
  | .hbm, ⟨8, _⟩ => ⟨S1024x192, .f32⟩
  | .hbm, ⟨9, _⟩ => ⟨S1024x192x1, .f32⟩
  | .hbm, ⟨10, _⟩ => ⟨S1024x192, .f32⟩
  | .hbm, ⟨11, _⟩ => ⟨S1024x192x1, .f32⟩
  | .hbm, ⟨12, _⟩ => ⟨S1024x192, .f32⟩
  | .hbm, ⟨13, _⟩ => ⟨S1024x192x1, .f32⟩
  | .hbm, ⟨14, _⟩ => ⟨S1024x192, .f32⟩
  | .hbm, ⟨15, _⟩ => ⟨S1024x192x1, .f32⟩
  | .hbm, ⟨16, _⟩ => ⟨S1024x192, .f32⟩
  | .hbm, ⟨17, _⟩ => ⟨S1024x192x1, .f32⟩
  | .hbm, ⟨18, _⟩ => ⟨S1024x192, .f32⟩
  | .hbm, ⟨19, _⟩ => ⟨S1024x192x1, .f32⟩
  | .hbm, ⟨20, _⟩ => ⟨S1024x192, .f32⟩
  | .hbm, ⟨21, _⟩ => ⟨S2x192x192, .f32⟩
  | .hbm, ⟨22, _⟩ => ⟨S2x192x192, .f32⟩
  | .hbm, ⟨23, _⟩ => ⟨S2x1x1, .f32⟩
  | .hbm, ⟨24, _⟩ => ⟨S2x1x1, .f32⟩
  | .hbm, ⟨25, _⟩ => ⟨S_, .f32⟩
  | .hbm, ⟨26, _⟩ => ⟨S192x192, .f32⟩
  | .hbm, ⟨27, _⟩ => ⟨S_, .f32⟩
  | .hbm, ⟨28, _⟩ => ⟨S192x192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S192x192, .i1⟩
  | .hbm, ⟨39, _⟩ => ⟨S192x192, .i32⟩
  | .hbm, ⟨40, _⟩ => ⟨S_, .i32⟩
  | .hbm, ⟨41, _⟩ => ⟨S192x192, .i32⟩
  | .hbm, ⟨42, _⟩ => ⟨S192x192, .i32⟩
  | .hbm, ⟨43, _⟩ => ⟨S192x192, .i32⟩
  | .hbm, ⟨44, _⟩ => ⟨S192x192, .i1⟩
  | .hbm, ⟨45, _⟩ => ⟨S_, .i1⟩
  | .hbm, ⟨46, _⟩ => ⟨S192x192, .i1⟩
  | .hbm, ⟨47, _⟩ => ⟨S192x192, .i1⟩
  | .hbm, ⟨48, _⟩ => ⟨S192x192, .i32⟩
  | .hbm, ⟨49, _⟩ => ⟨S_, .i32⟩
  | .hbm, ⟨50, _⟩ => ⟨S192x192, .i32⟩
  | .hbm, ⟨51, _⟩ => ⟨S192x192, .i1⟩
  | .hbm, ⟨52, _⟩ => ⟨S192x192, .i1⟩
  | .hbm, ⟨53, _⟩ => ⟨S_, .f32⟩
  | .hbm, ⟨54, _⟩ => ⟨S192x192, .f32⟩
  | .hbm, ⟨55, _⟩ => ⟨S192x192, .f32⟩
  | .hbm, ⟨56, _⟩ => ⟨S_, .f32⟩
  | .hbm, ⟨57, _⟩ => ⟨S192x192, .f32⟩
  | .hbm, ⟨58, _⟩ => ⟨S192x192, .f32⟩
  | .hbm, ⟨59, _⟩ => ⟨S_, .f32⟩
  | .hbm, ⟨60, _⟩ => ⟨S_, .f32⟩
  | .hbm, ⟨61, _⟩ => ⟨S192x192, .f32⟩
  | .hbm, ⟨62, _⟩ => ⟨S192x192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S192x192, .f32⟩
  | .hbm, ⟨68, _⟩ => ⟨S192x192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S8x192, .f32⟩
  | .local _ .vmem, ⟨1, _⟩ => ⟨S8x192, .f32⟩
  | .local _ .vmem, ⟨2, _⟩ => ⟨S8x192, .f32⟩
  | .local _ .vmem, ⟨3, _⟩ => ⟨S8x192, .f32⟩
  | .local _ .vmem, ⟨4, _⟩ => ⟨S8x192, .f32⟩
  | .local _ .vmem, ⟨5, _⟩ => ⟨S8x192, .f32⟩
  | .local _ .vmem, ⟨6, _⟩ => ⟨S8x192, .f32⟩
  | .local _ .vmem, ⟨7, _⟩ => ⟨S8x192, .f32⟩
  | .local _ .vmem, ⟨8, _⟩ => ⟨S8x192, .f32⟩
  | .local _ .vmem, ⟨9, _⟩ => ⟨S8x192, .f32⟩
  | .local _ .vmem, ⟨10, _⟩ => ⟨S8x192, .f32⟩
  | .local _ .vmem, ⟨11, _⟩ => ⟨S8x192, .f32⟩
  | .local _ .vmem, ⟨12, _⟩ => ⟨S8x192, .f32⟩
  | .local _ .vmem, ⟨13, _⟩ => ⟨S8x192, .f32⟩
  | .local _ .vmem, ⟨14, _⟩ => ⟨S8x192, .f32⟩
  | .local _ .vmem, ⟨15, _⟩ => ⟨S8x192, .f32⟩
  | .local _ .vmem, ⟨16, _⟩ => ⟨S1x192x192, .f32⟩
  | .local _ .vmem, ⟨17, _⟩ => ⟨S1x192x192, .f32⟩
  | .local _ .vmem, ⟨18, _⟩ => ⟨S1x192x192, .f32⟩
  | .local _ .vmem, ⟨19, _⟩ => ⟨S1x192x192, .f32⟩
  | .local _ .vmem, ⟨20, _⟩ => ⟨S1x1x1, .f32⟩
  | .local _ .vmem, ⟨21, _⟩ => ⟨S1x1x1, .f32⟩
  | .local _ .vmem, ⟨22, _⟩ => ⟨S1x1x1, .f32⟩
  | .local _ .vmem, ⟨23, _⟩ => ⟨S1x1x1, .f32⟩
  | .local _ .vmem, ⟨24, _⟩ => ⟨S192x192, .f32⟩
  | .local _ .vmem, ⟨25, _⟩ => ⟨S192x192, .f32⟩
  | .local _ .vmem, ⟨26, _⟩ => ⟨S1x1, .f32⟩
  | .local _ .vmem, ⟨27, _⟩ => ⟨S1x1, .f32⟩
  | _, _ => ⟨S1024x192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_0 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_call1_v0 : Ref sig .tc := ⟨.hbm, 60, rfl⟩
abbrev main_call1_v1 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_cst_10 : Ref sig .tc := ⟨.hbm, 65, rfl⟩
abbrev main_call2_v0 : Ref sig .tc := ⟨.hbm, 66, rfl⟩
abbrev main_call2_v1 : Ref sig .tc := ⟨.hbm, 67, rfl⟩
abbrev main_v35 : Ref sig .tc := ⟨.hbm, 68, rfl⟩
abbrev main_cst_11 : Ref sig .tc := ⟨.hbm, 69, rfl⟩
abbrev main_v36 : Ref sig .tc := ⟨.hbm, 70, rfl⟩
abbrev main_cst_12 : Ref sig .tc := ⟨.hbm, 71, rfl⟩
abbrev main_v37 : Ref sig .tc := ⟨.hbm, 72, rfl⟩
abbrev main_cst_13 : Ref sig .tc := ⟨.hbm, 73, rfl⟩
abbrev main_v38 : Ref sig .tc := ⟨.hbm, 74, rfl⟩
abbrev main_v39 : Ref sig .tc := ⟨.hbm, 75, rfl⟩
abbrev main_cst_14 : Ref sig .tc := ⟨.hbm, 76, rfl⟩
abbrev main_v40 : Ref sig .tc := ⟨.hbm, 77, rfl⟩
abbrev main_v41 : Ref sig .tc := ⟨.hbm, 78, rfl⟩
abbrev main_cst_15 : Ref sig .tc := ⟨.hbm, 79, rfl⟩
abbrev main_v42 : Ref sig .tc := ⟨.hbm, 80, rfl⟩
abbrev main_v43 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v112 : BitVec 1 := Scalar.cmpi .eq arg1 c63_i32
  let v113 : BitVec 32 := Scalar.extui v112
  let c0_i32_41 : BitVec 32 := 0#32
  let v114 : BitVec 1 := Scalar.cmpi .ne v113 c0_i32_41
  v114

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x192x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  slices_S1024x192x2_S1024x192x1_0_0_0 : S1024x192x2.Slices ![0, 0, 0] S1024x192x1
  shapeCasts_S1024x192x1_S1024x192 : S1024x192x1.ShapeCasts S1024x192
  slices_S1024x192x2_S1024x192x1_0_0_1 : S1024x192x2.Slices ![0, 0, 1] S1024x192x1
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x192_S8x192_0_0 : ∀ a, (![0, 0] : Fin 2 → Nat) a + S8x192.size a ≤ S8x192.size a
  h_S8x192 : 0 < S8x192.numel
  shapeCasts_S8x192_S8x192 : S8x192.ShapeCasts S8x192
  shapeCasts_S8x192_S8x192x1 : S8x192.ShapeCasts S8x192x1
  shapeCasts_S8x192_S8x1x192 : S8x192.ShapeCasts S8x1x192
  broadcasts_S8x192x1_S8x192x192 : S8x192x1.Broadcasts S8x192x192
  broadcasts_S8x1x192_S8x192x192 : S8x1x192.Broadcasts S8x192x192
  reduces_S8x192x192_S192x192 : S8x192x192.Reduces [0] S192x192
  reduces_S8x192_S8 : S8x192.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S192x192_S1x192x192 : S192x192.ShapeCasts S1x192x192
  inb_S1x192x192_S1x192x192_0_0_0 : ∀ a, (![0, 0, 0] : Fin 3 → Nat) a + S1x192x192.size a ≤ S1x192x192.size a
  h_S1x192x192 : 0 < S1x192x192.numel
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x192x192_S192x192_d0 : S2x192x192.ReducesTo [0] S192x192
  h_S_ : 0 < S_.numel
  reducesTo_S2x1x1_S_d0_1_2 : S2x1x1.ReducesTo [0, 1, 2] S_
  bcast_S_S192x192 : S_.BroadcastsInDim S192x192 (![] : Fin 0 → Fin S192x192.rank)
  shapeCasts_S1x192x192_S192x192 : S1x192x192.ShapeCasts S192x192
  reducesTo_S192x192_S_d0_1 : S192x192.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x192.size a ≤ S1024x192.size a
  hwx0_0 : ∀ i : grid0.Coords, EltTy.bits .f32 = 32 ∨ (Rect.block (s := S1024x192) S8x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x192.size a ≤ S1024x192.size a
  hwx0_1 : ∀ i : grid0.Coords, EltTy.bits .f32 = 32 ∨ (Rect.block (s := S1024x192) S8x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x192.size a ≤ S1024x192.size a
  hwx0_2 : ∀ i : grid0.Coords, EltTy.bits .f32 = 32 ∨ (Rect.block (s := S1024x192) S8x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x192.size a ≤ S1024x192.size a
  hwx0_3 : ∀ i : grid0.Coords, EltTy.bits .f32 = 32 ∨ (Rect.block (s := S1024x192) S8x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x192.size a ≤ S1024x192.size a
  hwx0_4 : ∀ i : grid0.Coords, EltTy.bits .f32 = 32 ∨ (Rect.block (s := S1024x192) S8x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x192.size a ≤ S1024x192.size a
  hwx0_5 : ∀ i : grid0.Coords, EltTy.bits .f32 = 32 ∨ (Rect.block (s := S1024x192) S8x192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x192.size a ≤ S1024x192.size a
  hwx0_6 : ∀ i : grid0.Coords, EltTy.bits .f32 = 32 ∨ (Rect.block (s := S1024x192) S8x192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x192.size a ≤ S1024x192.size a
  hwx0_7 : ∀ i : grid0.Coords, EltTy.bits .f32 = 32 ∨ (Rect.block (s := S1024x192) S8x192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x192x192.size a ≤ S2x192x192.size a
  hwx0_8 : ∀ i : grid0.Coords, EltTy.bits .f32 = 32 ∨ (Rect.block (s := S2x192x192) S1x192x192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x192x192.size a ≤ S2x192x192.size a
  hwx0_9 : ∀ i : grid0.Coords, EltTy.bits .f32 = 32 ∨ (Rect.block (s := S2x192x192) S1x192x192.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S2x1x1.size a
  hwx0_10 : ∀ i : grid0.Coords, EltTy.bits .f32 = 32 ∨ (Rect.block (s := S2x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1.size a ≤ S2x1x1.size a
  hwx0_11 : ∀ i : grid0.Coords, EltTy.bits .f32 = 32 ∨ (Rect.block (s := S2x1x1) S1x1x1.size (cc0_transform_11 i) (hinb0_11 i)).WholeWords (EltTy.packing .f32)

variable [Facts₀]

abbrev win0_0 : Pipeline.Window sig grid0 :=
  Pipeline.Window.ofSpec (Memref.whole main_v1) S8x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8x192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S8x192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S8x192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S8x192.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_0) S1x192x192.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_1) S1x192x192.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v16_2) S1x1x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v16_3) S1x1x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S1024x192x2 : Shape := ⟨3, ![1024, 192, 2]⟩
abbrev S1x192x192 : Shape := ⟨3, ![1, 192, 192]⟩
abbrev S_ : Shape := ⟨0, ![]⟩
abbrev S192x192 : Shape := ⟨2, ![192, 192]⟩
abbrev S1024x192x1 : Shape := ⟨3, ![1024, 192, 1]⟩
abbrev S1024x192 : Shape := ⟨2, ![1024, 192]⟩
abbrev S1024x1x192 : Shape := ⟨3, ![1024, 1, 192]⟩
abbrev S1024x192x192 : Shape := ⟨3, ![1024, 192, 192]⟩

abbrev nBuf : Space → Nat
  | .hbm => 137
  | .vmem => 0
  | .smem => 0
  | _ => 0

abbrev hbmTy0_0 (i : Nat) : BufTy := match i % 128 with
  | 0 => ⟨S1024x192x2, .f32⟩
  | 1 => ⟨S1024x192x2, .f32⟩
  | 2 => ⟨S1024x192x2, .f32⟩
  | 3 => ⟨S1024x192x2, .f32⟩
  | 4 => ⟨S1x192x192, .i32⟩
  | 5 => ⟨S1024x192x2, .f32⟩
  | 6 => ⟨S1024x192x2, .f32⟩
  | 7 => ⟨S_, .f32⟩
  | 8 => ⟨S_, .f32⟩
  | 9 => ⟨S_, .f32⟩
  | 10 => ⟨S_, .f32⟩
  | 11 => ⟨S1024x192x2, .f32⟩
  | 12 => ⟨S1024x192x2, .f32⟩
  | 13 => ⟨S_, .f32⟩
  | 14 => ⟨S_, .f32⟩
  | 15 => ⟨S_, .f32⟩
  | 16 => ⟨S_, .f32⟩
  | 17 => ⟨S_, .i1⟩
  | 18 => ⟨S192x192, .i1⟩
  | 19 => ⟨S192x192, .i32⟩
  | 20 => ⟨S_, .i32⟩
  | 21 => ⟨S192x192, .i32⟩
  | 22 => ⟨S192x192, .i32⟩
  | 23 => ⟨S192x192, .i32⟩
  | 24 => ⟨S192x192, .i1⟩
  | 25 => ⟨S_, .i1⟩
  | 26 => ⟨S192x192, .i1⟩
  | 27 => ⟨S192x192, .i1⟩
  | 28 => ⟨S1024x192x1, .f32⟩
  | 29 => ⟨S1024x192, .f32⟩
  | 30 => ⟨S1024x192x1, .f32⟩
  | 31 => ⟨S1024x192, .f32⟩
  | 32 => ⟨S1024x192x1, .f32⟩
  | 33 => ⟨S1024x192, .f32⟩
  | 34 => ⟨S1024x192x1, .f32⟩
  | 35 => ⟨S1024x192, .f32⟩
  | 36 => ⟨S1024x192, .f32⟩
  | 37 => ⟨S1024x192x1, .f32⟩
  | 38 => ⟨S1024x192, .f32⟩
  | 39 => ⟨S1024x1x192, .f32⟩
  | 40 => ⟨S1024x192x192, .f32⟩
  | 41 => ⟨S1024x192x192, .f32⟩
  | 42 => ⟨S1024x192x192, .f32⟩
  | 43 => ⟨S1024x192x1, .f32⟩
  | 44 => ⟨S1024x1x192, .f32⟩
  | 45 => ⟨S1024x192x192, .f32⟩
  | 46 => ⟨S1024x192x192, .f32⟩
  | 47 => ⟨S1024x192x192, .f32⟩
  | 48 => ⟨S1024x192x192, .f32⟩
  | 49 => ⟨S_, .i32⟩
  | 50 => ⟨S_, .f32⟩
  | 51 => ⟨S1024x192x192, .f32⟩
  | 52 => ⟨S1024x192x192, .f32⟩
  | 53 => ⟨S1024x192, .f32⟩
  | 54 => ⟨S1024x192x1, .f32⟩
  | 55 => ⟨S1024x192, .f32⟩
  | 56 => ⟨S1024x1x192, .f32⟩
  | 57 => ⟨S1024x192x192, .f32⟩
  | 58 => ⟨S1024x192x192, .f32⟩
  | 59 => ⟨S1024x192x192, .f32⟩
  | 60 => ⟨S1024x192x1, .f32⟩
  | 61 => ⟨S1024x1x192, .f32⟩
  | 62 => ⟨S1024x192x192, .f32⟩
  | 63 => ⟨S1024x192x192, .f32⟩
  | 64 => ⟨S1024x192x192, .f32⟩
  | 65 => ⟨S1024x192x192, .f32⟩
  | 66 => ⟨S_, .i32⟩
  | 67 => ⟨S_, .f32⟩
  | 68 => ⟨S1024x192x192, .f32⟩
  | 69 => ⟨S1024x192x192, .f32⟩
  | 70 => ⟨S1024x192x192, .f32⟩
  | 71 => ⟨S_, .f32⟩
  | 72 => ⟨S192x192, .f32⟩
  | 73 => ⟨S_, .f32⟩
  | 74 => ⟨S192x192, .f32⟩
  | 75 => ⟨S192x192, .f32⟩
  | 76 => ⟨S_, .f32⟩
  | 77 => ⟨S_, .f32⟩
  | 78 => ⟨S192x192, .f32⟩
  | 79 => ⟨S192x192, .f32⟩
  | 80 => ⟨S_, .f32⟩
  | 81 => ⟨S_, .f32⟩
  | 82 => ⟨S_, .f32⟩
  | 83 => ⟨S1024x192x2, .f32⟩
  | 84 => ⟨S1024x192x2, .f32⟩
  | 85 => ⟨S1024x192x2, .f32⟩
  | 86 => ⟨S1024x192x1, .f32⟩
  | 87 => ⟨S1024x192, .f32⟩
  | 88 => ⟨S1024x192x1, .f32⟩
  | 89 => ⟨S1024x192, .f32⟩
  | 90 => ⟨S1024x192x1, .f32⟩
  | 91 => ⟨S1024x1x192, .f32⟩
  | 92 => ⟨S1024x192x192, .f32⟩
  | 93 => ⟨S1024x192x192, .f32⟩
  | 94 => ⟨S1024x192x192, .f32⟩
  | 95 => ⟨S1024x192x1, .f32⟩
  | 96 => ⟨S1024x1x192, .f32⟩
  | 97 => ⟨S1024x192x192, .f32⟩
  | 98 => ⟨S1024x192x192, .f32⟩
  | 99 => ⟨S1024x192x192, .f32⟩
  | 100 => ⟨S1024x192x192, .f32⟩
  | 101 => ⟨S1024x192x192, .f32⟩
  | 102 => ⟨S1024x192x192, .f32⟩
  | 103 => ⟨S192x192, .i32⟩
  | 104 => ⟨S_, .i32⟩
  | 105 => ⟨S192x192, .i32⟩
  | 106 => ⟨S192x192, .i1⟩
  | 107 => ⟨S192x192, .i1⟩
  | 108 => ⟨S1x192x192, .i1⟩
  | 109 => ⟨S_, .f32⟩
  | 110 => ⟨S_, .f32⟩
  | 111 => ⟨S1024x192x192, .i1⟩
  | 112 => ⟨S1024x192x192, .f32⟩
  | 113 => ⟨S1024x192x192, .f32⟩
  | 114 => ⟨S1024x192x192, .f32⟩
  | 115 => ⟨S_, .f32⟩
  | 116 => ⟨S192x192, .f32⟩
  | 117 => ⟨S_, .f32⟩
  | 118 => ⟨S192x192, .f32⟩
  | 119 => ⟨S192x192, .f32⟩
  | 120 => ⟨S_, .f32⟩
  | 121 => ⟨S_, .f32⟩
  | 122 => ⟨S192x192, .f32⟩
  | 123 => ⟨S192x192, .f32⟩
  | 124 => ⟨S_, .f32⟩
  | 125 => ⟨S_, .f32⟩
  | 126 => ⟨S_, .f32⟩
  | 127 => ⟨S_, .f32⟩
  | _ => ⟨S1024x192x2, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S1024x192x2, .f32⟩

abbrev hbmTy (i : Nat) : BufTy := match i / 128 with
  | 0 => hbmTy0_0 i
  | 1 => hbmTy0_1 i
  | _ => ⟨S1024x192x2, .f32⟩

abbrev bufTy : (tb : Table) → Fin (tcTables nBuf tb) → BufTy
  | .hbm, ⟨i, _⟩ => hbmTy i
  | _, _ => ⟨S1024x192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_3 : Ref sig .tc := ⟨.hbm, 49, rfl⟩
abbrev main_call1_v0 : Ref sig .tc := ⟨.hbm, 50, rfl⟩
abbrev main_call1_v1 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_call2_v0 : Ref sig .tc := ⟨.hbm, 67, rfl⟩
abbrev main_call2_v1 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_cst_6 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_call3_v0 : Ref sig .tc := ⟨.hbm, 77, rfl⟩
abbrev main_call3_v1 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v77 : Ref sig .tc := ⟨.hbm, 113, rfl⟩
abbrev main_v78 : Ref sig .tc := ⟨.hbm, 114, rfl⟩
abbrev main_cst_12 : Ref sig .tc := ⟨.hbm, 115, rfl⟩
abbrev main_v79 : Ref sig .tc := ⟨.hbm, 116, rfl⟩
abbrev main_cst_13 : Ref sig .tc := ⟨.hbm, 117, rfl⟩
abbrev main_v80 : Ref sig .tc := ⟨.hbm, 118, rfl⟩
abbrev main_v81 : Ref sig .tc := ⟨.hbm, 119, rfl⟩
abbrev main_cst_14 : Ref sig .tc := ⟨.hbm, 120, rfl⟩
abbrev main_call5_v0 : Ref sig .tc := ⟨.hbm, 121, rfl⟩
abbrev main_call5_v1 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_cst_16 : Ref sig .tc := ⟨.hbm, 126, rfl⟩
abbrev main_v84 : Ref sig .tc := ⟨.hbm, 127, rfl⟩
abbrev main_cst_17 : Ref sig .tc := ⟨.hbm, 128, rfl⟩
abbrev main_v85 : Ref sig .tc := ⟨.hbm, 129, rfl⟩
abbrev main_v86 : Ref sig .tc := ⟨.hbm, 130, rfl⟩
abbrev main_cst_18 : Ref sig .tc := ⟨.hbm, 131, rfl⟩
abbrev main_v87 : Ref sig .tc := ⟨.hbm, 132, rfl⟩
abbrev main_v88 : Ref sig .tc := ⟨.hbm, 133, rfl⟩
abbrev main_cst_19 : Ref sig .tc := ⟨.hbm, 134, rfl⟩
abbrev main_v89 : Ref sig .tc := ⟨.hbm, 135, rfl⟩
abbrev main_v90 : Ref sig .tc := ⟨.hbm, 136, rfl⟩

abbrev nD : Nat := 1
abbrev τ : Topo := Topo.v7x

variable {F : FTy → Type} [FloatOps F]

class Facts₀ : Prop where
  reducesTo_S1024x192x2_S_d0_1_2 : S1024x192x2.ReducesTo [0, 1, 2] S_
  h_S_ : 0 < S_.numel
  bcast_S_S192x192 : S_.BroadcastsInDim S192x192 (![] : Fin 0 → Fin S192x192.rank)
  slices_S1024x192x2_S1024x192x1_0_0_0 : S1024x192x2.Slices ![0, 0, 0] S1024x192x1
  shapeCasts_S1024x192x1_S1024x192 : S1024x192x1.ShapeCasts S1024x192
  slices_S1024x192x2_S1024x192x1_0_0_1 : S1024x192x2.Slices ![0, 0, 1] S1024x192x1
  bcast_S1024x192_S1024x192x1_0_1 : S1024x192.BroadcastsInDim S1024x192x1 (![0, 1] : Fin 2 → Fin S1024x192x1.rank)
  bcast_S1024x192_S1024x1x192_0_2 : S1024x192.BroadcastsInDim S1024x1x192 (![0, 2] : Fin 2 → Fin S1024x1x192.rank)
  bcast_S1024x192x1_S1024x192x192_0_1_2 : S1024x192x1.BroadcastsInDim S1024x192x192 (![0, 1, 2] : Fin 3 → Fin S1024x192x192.rank)
  bcast_S1024x1x192_S1024x192x192_0_1_2 : S1024x1x192.BroadcastsInDim S1024x192x192 (![0, 1, 2] : Fin 3 → Fin S1024x192x192.rank)
  bcast_S_S1024x192x192 : S_.BroadcastsInDim S1024x192x192 (![] : Fin 0 → Fin S1024x192x192.rank)
  reducesTo_S1024x192x192_S192x192_d0 : S1024x192x192.ReducesTo [0] S192x192
  reducesTo_S192x192_S_d0_1 : S192x192.ReducesTo [0, 1] S_
  bcast_S_S1024x192x2 : S_.BroadcastsInDim S1024x192x2 (![] : Fin 0 → Fin S1024x192x2.rank)
  shapeCasts_S1x192x192_S192x192 : S1x192x192.ShapeCasts S192x192
  bcast_S192x192_S1x192x192_1_2 : S192x192.BroadcastsInDim S1x192x192 (![1, 2] : Fin 2 → Fin S1x192x192.rank)
  bcast_S1x192x192_S1024x192x192_0_1_2 : S1x192x192.BroadcastsInDim S1024x192x192 (![0, 1, 2] : Fin 3 → Fin S1024x192x192.rank)

variable [Facts₀]

class Facts : Prop extends Facts₀ where

variable [Facts]
-- ==== Proof.LossSpec.lean ====
/-
  The floor-plan loss as plain arithmetic on the extended reals: the quantities both programs compute, written
  once over the box arrays (positions, sizes and their targets, each indexed by batch row, room and coordinate;
  coordinate 0 is horizontal, 1 vertical).

  Per batch row `b` and pair of rooms `(i, j)`: the area of the two boxes' intersection (the product over the two
  coordinates of the length of the intersection of the intervals `[p, p + s]`, zero when they are disjoint) and the
  distance of their centres `p + s/2`; per row and room the squared error against the target. The loss's four
  terms are means of these over the batch (and, for the pair terms, a sum over the pairs a mask selects), and
  the total is their fixed linear combination.

  The second half writes the same batch sums the way a two-core tiled walk accumulates them: the batch is cut
  into 128 tiles of 8 rows, each core walks 64 consecutive tiles keeping a running total it restarts at its
  first tile, and the two cores' totals are added at the end.
-/
import Idealize.ShloMosaic.PureOps.Ideal
import Idealize.ShloMosaic.Lib.ValueIdx

noncomputable section

namespace Cert.FloorPlan

open Idealize.ShloMosaic Idealize.ShloMosaic.ValueIdx

/-- A box array: batch row, room, coordinate. -/
abbrev Boxes : Type := Fin 1024 → Fin 192 → Fin 2 → EReal

/-- A box array read off a [1024, 192, 2] buffer. -/
def boxes (x : (⟨3, ![1024, 192, 2]⟩ : Shape).Idx → EReal) : Boxes := fun b r k => x (ix3 b r k)

/-- The pairs of rooms, as the index set of a [192, 192] buffer. -/
abbrev Pairs : Shape := ⟨2, ![192, 192]⟩

/-! ## One batch row -/

/-- Along coordinate `k`, the length of the intersection of rooms `i` and `j`'s intervals (0 when disjoint). -/
def overlapLen (P S : Boxes) (k : Fin 2) (b : Fin 1024) (i j : Fin 192) : EReal :=
  max (min (P b i k + S b i k) (P b j k + S b j k) - max (P b i k) (P b j k)) 0

/-- The area of the intersection of rooms `i` and `j`. -/
def overlapArea (P S : Boxes) (b : Fin 1024) (i j : Fin 192) : EReal :=
  overlapLen P S 0 b i j * overlapLen P S 1 b i j

/-- One half, as the float literal both programs spell it. -/
def half : EReal := Ideal.ofBits .f32 0x3F000000#32

/-- A room's centre along coordinate `k`: position plus half the size. -/
def centre (P S : Boxes) (k : Fin 2) (b : Fin 1024) (r : Fin 192) : EReal := P b r k + half * S b r k

/-- The distance between the centres of rooms `i` and `j`. -/
def centreDist (P S : Boxes) (b : Fin 1024) (i j : Fin 192) : EReal :=
  Ideal.sqrt ((centre P S 0 b i - centre P S 0 b j) * (centre P S 0 b i - centre P S 0 b j)
    + (centre P S 1 b i - centre P S 1 b j) * (centre P S 1 b i - centre P S 1 b j))

/-- The squared error of a room's two coordinates against the target's. -/
def sqErr (U V : Boxes) (b : Fin 1024) (r : Fin 192) : EReal :=
  (U b r 0 - V b r 0) * (U b r 0 - V b r 0) + (U b r 1 - V b r 1) * (U b r 1 - V b r 1)

/-! ## The batch sums and the loss's terms -/

def sumSqErr (U V : Boxes) : EReal := ∑ b : Fin 1024, ∑ r : Fin 192, sqErr U V b r

def sumOverlap (P S : Boxes) (i j : Fin 192) : EReal := ∑ b : Fin 1024, overlapArea P S b i j

def sumDist (P S : Boxes) (i j : Fin 192) : EReal := ∑ b : Fin 1024, centreDist P S b i j

/-- A sum over all `1024 · 192 · 2` coordinates, as a mean. -/
def meanOfCoords (s : EReal) : EReal := Ideal.div s (Ideal.ofBits .f32 0x48C00000#32)

/-- A sum over the batch's 1024 rows, as a mean. -/
def meanOfBatch (s : EReal) : EReal := Ideal.div s (Ideal.ofBits .f32 0x44800000#32)

/-- The sum over the pairs a mask selects. -/
def maskedTotal (mask : Pairs.Idx → BitVec 1) (f : Pairs.Idx → EReal) : EReal :=
  ∑ p : Pairs.Idx, Scalar.select (mask p) (f p) (Ideal.ofBits .f32 0x00000000#32)

def positionLoss (P TP : Boxes) : EReal := meanOfCoords (sumSqErr P TP)

def sizeLoss (S TS : Boxes) : EReal := meanOfCoords (sumSqErr S TS)

def overlapPenalty (mask : Pairs.Idx → BitVec 1) (P S : Boxes) : EReal :=
  maskedTotal mask fun p => meanOfBatch (sumOverlap P S (p 0) (p 1))

def adjacencyLoss (mask : Pairs.Idx → BitVec 1) (P S : Boxes) : EReal :=
  maskedTotal mask fun p => meanOfBatch (sumDist P S (p 0) (p 1))

/-- The weighted total: weights 1, 1, 1/2 and the float nearest 0.3, added left to right. -/
def totalLoss (pos size ovl adj : EReal) : EReal :=
  Ideal.ofBits .f32 0x3F800000#32 * pos + Ideal.ofBits .f32 0x3F800000#32 * size
    + Ideal.ofBits .f32 0x3F000000#32 * ovl + Ideal.ofBits .f32 0x3E99999A#32 * adj

/-! ## The same sums, tile by tile -/

/-- Row `b'` of the 8-row tile number `t` (for `t < 128` it is row `8 t + b'`). -/
def tileRow (t : ℕ) (b' : Fin 8) : Fin 1024 := ⟨(8 * t + b'.val) % 1024, Nat.mod_lt _ (by norm_num)⟩

def tileOverlap (P S : Boxes) (t : ℕ) (i j : Fin 192) : EReal := ∑ b' : Fin 8, overlapArea P S (tileRow t b') i j

def tileDist (P S : Boxes) (t : ℕ) (i j : Fin 192) : EReal := ∑ b' : Fin 8, centreDist P S (tileRow t b') i j

def tileSqErr (U V : Boxes) (t : ℕ) : EReal := ∑ b' : Fin 8, ∑ r : Fin 192, sqErr U V (tileRow t b') r

/-- The running total of a walk over the tiles that restarts from zero at every 64th tile. -/
def running {α : Type} [Zero α] [Add α] (T : ℕ → α) : ℕ → α
  | 0 => 0 + T 0
  | t + 1 => if (t + 1) % 64 = 0 then 0 + T (t + 1) else running T t + T (t + 1)

/-- What core `c` has added up after its 64 tiles. -/
def coreTotal {α : Type} [AddCommMonoid α] (T : ℕ → α) (c : ℕ) : α := ∑ n ∈ Finset.range 64, T (64 * c + n)

end Cert.FloorPlan

end
-- ==== Proof.LossSums.lean ====
/-
  Sums re-arranged: the tile-by-tile, core-by-core accumulation of a batch sum is the batch sum. Addition on the
  extended reals is commutative and associative, so only the bookkeeping of indices is at stake: a batch row is
  `8 t + b'` for a tile `t < 128` and a row `b' < 8` of it, a tile is `64 c + n` for a core `c < 2` and its `n`-th
  tile, and a running total restarted at the core's first tile ends, after the core's last tile, at the sum of
  the core's 64 tiles.
-/
import proofs.«101962_j64450279244066_1_alg».proof.Proof.LossSpec
import Mathlib.Algebra.BigOperators.Fin
import Mathlib.Algebra.BigOperators.Intervals

noncomputable section

namespace Cert.FloorPlan

open Idealize.ShloMosaic Idealize.ShloMosaic.ValueIdx

/-! ## A rank-3 index set, coordinate by coordinate -/

/-- The index set of a rank-3 buffer is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 buffer, coordinate by coordinate. -/
theorem sum_idx3 {M : Type*} [AddCommMonoid M] {n0 n1 n2 : ℕ} (f : (⟨3, ![n0, n1, n2]⟩ : Shape).Idx → M) :
    ∑ q, f q = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The running total -/

/-- The running total at the first tile of all. -/
theorem running_zero {α : Type} [Zero α] [Add α] (T : ℕ → α) : running T 0 = 0 + T 0 := rfl

/-- The running total one tile on: restarted where the tile number is a multiple of 64, carried on elsewhere. -/
theorem running_succ {α : Type} [Zero α] [Add α] (T : ℕ → α) (t : ℕ) :
    running T (t + 1) = if (t + 1) % 64 = 0 then 0 + T (t + 1) else running T t + T (t + 1) := rfl

/-- A running total of functions, read at a point, is the running total of the values there. -/
theorem running_apply {ι : Type} (T : ℕ → ι → EReal) (t : ℕ) (q : ι) :
    running T t q = running (fun s => T s q) t := by
  induction t with
  | zero => simp [running_zero]
  | succ t ih =>
    rw [running_succ, running_succ]
    split_ifs with h
    · simp
    · rw [Pi.add_apply, ih]

/-- At a core's first tile the running total is that tile's term: tile `64 c` is either tile 0 or the successor
    of tile `64 (c - 1) + 63`, and in both cases the total starts again from zero. -/
theorem running_restart {α : Type} [AddCommMonoid α] (T : ℕ → α) (c : ℕ) : running T (64 * c) = T (64 * c) := by
  cases c with
  | zero => simp [running_zero]
  | succ k =>
    have h : 64 * (k + 1) = (64 * k + 63) + 1 := by ring
    rw [h, running_succ, if_pos (by omega), zero_add]

/-- Within a core's 64 tiles the running total is the partial sum from the core's first tile: by induction on
    `n`, the step from `64 c + n` to `64 c + n + 1` being no restart since `n + 1 < 64`. -/
theorem running_block {α : Type} [AddCommMonoid α] (T : ℕ → α) (c n : ℕ) (hn : n < 64) :
    running T (64 * c + n) = ∑ q ∈ Finset.range (n + 1), T (64 * c + q) := by
  induction n with
  | zero => simp [running_restart]
  | succ n ih =>
    rw [Finset.sum_range_succ _ (n + 1), ← ih (by omega)]
    have h : 64 * c + (n + 1) = (64 * c + n) + 1 := by ring
    rw [h, running_succ, if_neg (by omega)]

/-- After a core's last tile the running total is the sum of the core's 64 tiles. -/
theorem running_last {α : Type} [AddCommMonoid α] (T : ℕ → α) (c : ℕ) :
    running T (64 * c + 63) = coreTotal T c :=
  running_block T c 63 (by norm_num)

/-! ## Cores, tiles and rows -/

/-- For a tile of the batch, `tileRow` is the row it names. -/
theorem tileRow_val (t : ℕ) (ht : t < 128) (b' : Fin 8) : (tileRow t b').val = 8 * t + b'.val := by
  have hb := b'.isLt
  show (8 * t + b'.val) % 1024 = 8 * t + b'.val
  omega

/-- A batch row is a core, one of the core's 64 tiles, and a row of that tile: `(c, n, b') ↦ 8 (64 c + n) + b'`
    is a bijection onto the 1024 rows, with inverse `b ↦ (b / 512, b / 8 % 64, b % 8)`. -/
def rowEquiv : Fin 2 × Fin 64 × Fin 8 ≃ Fin 1024 where
  toFun x := ⟨8 * (64 * x.1.val + x.2.1.val) + x.2.2.val, by
    have h1 := x.1.isLt; have h2 := x.2.1.isLt; have h3 := x.2.2.isLt; omega⟩
  invFun b := (⟨b.val / 512, by have := b.isLt; omega⟩, ⟨b.val / 8 % 64, by omega⟩, ⟨b.val % 8, by omega⟩)
  left_inv := by
    rintro ⟨c, n, b'⟩
    have hc := c.isLt; have hn := n.isLt; have hb := b'.isLt
    refine Prod.ext (Fin.ext ?_) (Prod.ext (Fin.ext ?_) (Fin.ext ?_)) <;> dsimp only <;> omega
  right_inv := by
    intro b
    have hb := b.isLt
    apply Fin.ext
    dsimp only
    omega

/-- The two cores' totals of the tiles' sums add up to the sum over the batch. -/
theorem sum_cores_tiles {M : Type} [AddCommMonoid M] (f : Fin 1024 → M) :
    ∑ c : Fin 2, coreTotal (fun t => ∑ b' : Fin 8, f (tileRow t b')) c.val = ∑ b : Fin 1024, f b := by
  calc ∑ c : Fin 2, coreTotal (fun t => ∑ b' : Fin 8, f (tileRow t b')) c.val
      = ∑ c : Fin 2, ∑ n : Fin 64, ∑ b' : Fin 8, f (tileRow (64 * c.val + n.val) b') := by
        simp only [coreTotal, Finset.sum_range]
    _ = ∑ x : Fin 2 × Fin 64 × Fin 8, f (tileRow (64 * x.1.val + x.2.1.val) x.2.2) := by
        simp only [Fintype.sum_prod_type]
    _ = ∑ b : Fin 1024, f b := by
        refine Fintype.sum_equiv rowEquiv _ _ fun x => ?_
        have h1 := x.1.isLt; have h2 := x.2.1.isLt
        congr 1
        apply Fin.ext
        rw [tileRow_val _ (by omega)]
        rfl

theorem sum_cores_overlap (P S : Boxes) (i j : Fin 192) :
    ∑ c : Fin 2, coreTotal (fun t => tileOverlap P S t i j) c.val = sumOverlap P S i j :=
  sum_cores_tiles fun b => overlapArea P S b i j

theorem sum_cores_dist (P S : Boxes) (i j : Fin 192) :
    ∑ c : Fin 2, coreTotal (fun t => tileDist P S t i j) c.val = sumDist P S i j :=
  sum_cores_tiles fun b => centreDist P S b i j

theorem sum_cores_sqErr (U V : Boxes) :
    ∑ c : Fin 2, coreTotal (tileSqErr U V) c.val = sumSqErr U V :=
  sum_cores_tiles fun b => ∑ r : Fin 192, sqErr U V b r

/-! ## One half -/

/-- The pattern `0x3F000000` (exponent field 126, significand field 0) denotes `2^23 · 2^(126 - 127 - 23) = 1/2`. -/
theorem ofBits_half : Ideal.ofBits .f32 0x3F000000#32 = ((1 / 2 : ℝ) : EReal) := by
  simp [Ideal.ofBits, Ideal.ieee, -EReal.coe_mul]; norm_num

/-- The pattern `0x40000000` (exponent field 128, significand field 0) denotes `2^23 · 2^(128 - 127 - 23) = 2`. -/
theorem ofBits_two : Ideal.ofBits .f32 0x40000000#32 = ((2 : ℝ) : EReal) := by
  simp [Ideal.ofBits, Ideal.ieee, -EReal.coe_mul]; norm_num

/-- Halving by the product with one half is halving by the quotient by two, on every extended real. -/
theorem half_mul (x : EReal) : half * x = Ideal.div x (Ideal.ofBits .f32 0x40000000#32) := by
  rw [half, ofBits_half, ofBits_two, Ideal.div_coe (by norm_num) x, mul_comm]

end Cert.FloorPlan

end
-- ==== Proof.RefLoss.lean ====
/-
  The reference program's five results are the loss's terms: each of its results, read operation by operation,
  is the specification's formula of the argument arrays.

  The reference reads one coordinate of a box array by slicing the last axis and reshaping [1024, 192, 1] to
  [1024, 192]: the row-major position b · 192 + r splits back into (b, r). It forms the pairwise quantities by
  broadcasting a [1024, 192] array along a new last axis (entry (b, i, j) reads room i) or a new middle axis (entry
  (b, i, j) reads room j), and sums them over the batch axis. Against the specification three things differ: the
  mean squared errors sum over all 1024 · 192 · 2 coordinates at once, where the specification sums the two
  coordinates' squares per row and room; a clipped length is the maximum taken with the zero first; and a centre
  is the position plus the size divided by two, where the specification multiplies by one half. For the distances
  the reference also guards the square root by the pair mask, broadcast over the batch; under the outer mask only
  selected pairs count, and for those the guard keeps the squared distance at every batch row.
-/
import proofs.«101962_j64450279244066_1_alg».proof.Proof.Gen.ReferenceIdeal.Read
import proofs.«101962_j64450279244066_1_alg».proof.Proof.LossSpec
import proofs.«101962_j64450279244066_1_alg».proof.Proof.LossSums

noncomputable section

namespace Cert.FloorPlan.Ref

open Idealize.ShloMosaic Idealize.ShloMosaic.ValueIdx Cert.FloorPlan
open Cert.ReferenceIdeal Cert.ReferenceIdeal.Read

/-! ## Indices and words -/

/-- The row-major position b · 192 + r of entry (b, r) of a [1024, 192] array splits back into b and r. -/
theorem unflatten (b : Fin 1024) (r : Fin 192) :
    (b.val * 192 + r.val) / 192 = b.val ∧ (b.val * 192 + r.val) / 1 % 192 = r.val := by
  have := r.isLt
  constructor <;> omega

/-- Two indices of a [1024, 192, 2] array with the same three coordinates are equal. -/
theorem idx3_ext {I J : S1024x192x2.Idx} (h0 : (I 0).val = (J 0).val) (h1 : (I 1).val = (J 1).val)
    (h2 : (I 2).val = (J 2).val) : I = J := by
  funext a
  refine Fin.ext ?_
  match a with
  | ⟨0, _⟩ => exact h0
  | ⟨1, _⟩ => exact h1
  | ⟨2, _⟩ => exact h2

/-- The integer zero converted to a float is the extended real zero. -/
theorem sitofp_zero : FloatOps.sitofp (F := Ideal) .f32 (0#32 : BitVec 32) = (0 : EReal) := by
  show ((((0#32 : BitVec 32).toInt : ℤ) : ℝ) : EReal) = 0
  simp

section Arrays

variable (x0 x1 : (⟨S1024x192x2, .f32⟩ : BufTy).Contents (Elt Ideal)) (x4 : (⟨S1x192x192, .i32⟩ : BufTy).Contents (Elt Ideal))

/-! ## A coordinate of a box array, sliced and reshaped -/

theorem pos0_at (b : Fin 1024) (r : Fin 192) : val_main_v11 (F := Ideal) x0 (ix2 b r) = x0 (ix3 b r 0) := by
  rw [val_main_v11_apply, val_main_v10_apply]
  exact congrArg x0 (idx3_ext (unflatten b r).1 (unflatten b r).2 rfl)

theorem pos1_at (b : Fin 1024) (r : Fin 192) : val_main_v13 (F := Ideal) x0 (ix2 b r) = x0 (ix3 b r 1) := by
  rw [val_main_v13_apply, val_main_v12_apply]
  exact congrArg x0 (idx3_ext (unflatten b r).1 (unflatten b r).2 rfl)

theorem siz0_at (b : Fin 1024) (r : Fin 192) : val_main_v15 (F := Ideal) x1 (ix2 b r) = x1 (ix3 b r 0) := by
  rw [val_main_v15_apply, val_main_v14_apply]
  exact congrArg x1 (idx3_ext (unflatten b r).1 (unflatten b r).2 rfl)

theorem siz1_at (b : Fin 1024) (r : Fin 192) : val_main_v17 (F := Ideal) x1 (ix2 b r) = x1 (ix3 b r 1) := by
  rw [val_main_v17_apply, val_main_v16_apply]
  exact congrArg x1 (idx3_ext (unflatten b r).1 (unflatten b r).2 rfl)

/-! ## The overlap of two rooms in one batch row -/

/-- Along coordinate 0, the far ends of rooms i and j, and their near ends: the arrays broadcast along rows read
    room i, those broadcast along columns room j. -/
theorem far0_row (b : Fin 1024) (i j : Fin 192) :
    val_main_v22 (F := Ideal) x0 x1 (ix3 b i j) = x0 (ix3 b i 0) + x1 (ix3 b i 0) := by
  rw [val_main_v22_apply, val_main_v19_apply, show idx_main_v19 (idx_main_v22 (ix3 b i j)) = ix2 b i from eq_ix2 _,
    val_main_v18_apply, pos0_at, siz0_at]
  rfl

theorem far0_col (b : Fin 1024) (i j : Fin 192) :
    val_main_v23 (F := Ideal) x0 x1 (ix3 b i j) = x0 (ix3 b j 0) + x1 (ix3 b j 0) := by
  rw [val_main_v23_apply, val_main_v21_apply, show idx_main_v21 (idx_main_v23 (ix3 b i j)) = ix2 b j from eq_ix2 _,
    val_main_v20_apply, pos0_at, siz0_at]
  rfl

theorem near0_row (b : Fin 1024) (i j : Fin 192) : val_main_v27 (F := Ideal) x0 (ix3 b i j) = x0 (ix3 b i 0) := by
  rw [val_main_v27_apply, val_main_v25_apply, show idx_main_v25 (idx_main_v27 (ix3 b i j)) = ix2 b i from eq_ix2 _, pos0_at]

theorem near0_col (b : Fin 1024) (i j : Fin 192) : val_main_v28 (F := Ideal) x0 (ix3 b i j) = x0 (ix3 b j 0) := by
  rw [val_main_v28_apply, val_main_v26_apply, show idx_main_v26 (idx_main_v28 (ix3 b i j)) = ix2 b j from eq_ix2 _, pos0_at]

theorem far1_row (b : Fin 1024) (i j : Fin 192) :
    val_main_v36 (F := Ideal) x0 x1 (ix3 b i j) = x0 (ix3 b i 1) + x1 (ix3 b i 1) := by
  rw [val_main_v36_apply, val_main_v33_apply, show idx_main_v33 (idx_main_v36 (ix3 b i j)) = ix2 b i from eq_ix2 _,
    val_main_v32_apply, pos1_at, siz1_at]
  rfl

theorem far1_col (b : Fin 1024) (i j : Fin 192) :
    val_main_v37 (F := Ideal) x0 x1 (ix3 b i j) = x0 (ix3 b j 1) + x1 (ix3 b j 1) := by
  rw [val_main_v37_apply, val_main_v35_apply, show idx_main_v35 (idx_main_v37 (ix3 b i j)) = ix2 b j from eq_ix2 _,
    val_main_v34_apply, pos1_at, siz1_at]
  rfl

theorem near1_row (b : Fin 1024) (i j : Fin 192) : val_main_v41 (F := Ideal) x0 (ix3 b i j) = x0 (ix3 b i 1) := by
  rw [val_main_v41_apply, val_main_v39_apply, show idx_main_v39 (idx_main_v41 (ix3 b i j)) = ix2 b i from eq_ix2 _, pos1_at]

theorem near1_col (b : Fin 1024) (i j : Fin 192) : val_main_v42 (F := Ideal) x0 (ix3 b i j) = x0 (ix3 b j 1) := by
  rw [val_main_v42_apply, val_main_v40_apply, show idx_main_v40 (idx_main_v42 (ix3 b i j)) = ix2 b j from eq_ix2 _, pos1_at]

/-- The clipped length along coordinate 0: the reference takes the maximum with the zero first. -/
theorem len0_at (b : Fin 1024) (i j : Fin 192) :
    val_main_v31 (F := Ideal) x0 x1 (ix3 b i j) = overlapLen (boxes x0) (boxes x1) 0 b i j := by
  rw [val_main_v31_apply, val_main_call1_v1_apply, val_main_call1_v0_apply, val_main_c_3_apply, sitofp_zero,
    val_main_v30_apply, val_main_v24_apply, val_main_v29_apply, far0_row, far0_col, near0_row, near0_col]
  exact max_comm _ _

theorem len1_at (b : Fin 1024) (i j : Fin 192) :
    val_main_v45 (F := Ideal) x0 x1 (ix3 b i j) = overlapLen (boxes x0) (boxes x1) 1 b i j := by
  rw [val_main_v45_apply, val_main_call2_v1_apply, val_main_call2_v0_apply, val_main_c_4_apply, sitofp_zero,
    val_main_v44_apply, val_main_v38_apply, val_main_v43_apply, far1_row, far1_col, near1_row, near1_col]
  exact max_comm _ _

theorem area_at (b : Fin 1024) (i j : Fin 192) :
    val_main_v46 (F := Ideal) x0 x1 (ix3 b i j) = overlapArea (boxes x0) (boxes x1) b i j := by
  rw [val_main_v46_apply, len0_at, len1_at]
  rfl

/-- The batch mean of a pair's overlap area. -/
theorem pairOverlap (p : S192x192.Idx) :
    val_main_v49 (F := Ideal) x0 x1 p = meanOfBatch (sumOverlap (boxes x0) (boxes x1) (p 0) (p 1)) := by
  rw [val_main_v49_apply, val_main_v47_apply, val_main_cst_5_apply, val_main_v48_apply, val_main_cst_6_apply]
  simp only [Ideal.ofBits_def, Ideal.hostDivf_def, Ideal.ofBits_zero_f32, zero_add]
  unfold meanOfBatch sumOverlap
  congr 1
  refine Finset.sum_congr rfl fun k _ => ?_
  rw [show idx_main_v47 p k = ix3 (n1 := 192) (n2 := 192) k (p 0) (p 1) from eq_ix3 _]
  exact area_at x0 x1 k (p 0) (p 1)

/-! ## The distance of two rooms' centres in one batch row -/

theorem ctr0_at (b : Fin 1024) (r : Fin 192) :
    val_main_v56 (F := Ideal) x0 x1 (ix2 b r) = centre (boxes x0) (boxes x1) 0 b r := by
  rw [val_main_v56_apply, val_main_v55_apply,
    show idx_main_v55 (idx_main_v56 (ix2 b r)) = ix3 b r 0 from idx3_ext (unflatten b r).1 (unflatten b r).2 rfl,
    val_main_v54_apply, val_main_v53_apply, val_main_v52_apply, val_main_cst_9_apply]
  unfold centre boxes
  rw [half_mul]
  rfl

theorem ctr1_at (b : Fin 1024) (r : Fin 192) :
    val_main_v58 (F := Ideal) x0 x1 (ix2 b r) = centre (boxes x0) (boxes x1) 1 b r := by
  rw [val_main_v58_apply, val_main_v57_apply,
    show idx_main_v57 (idx_main_v58 (ix2 b r)) = ix3 b r 1 from idx3_ext (unflatten b r).1 (unflatten b r).2 rfl,
    val_main_v54_apply, val_main_v53_apply, val_main_v52_apply, val_main_cst_9_apply]
  unfold centre boxes
  rw [half_mul]
  rfl

theorem diff0_at (b : Fin 1024) (i j : Fin 192) :
    val_main_v63 (F := Ideal) x0 x1 (ix3 b i j)
      = centre (boxes x0) (boxes x1) 0 b i - centre (boxes x0) (boxes x1) 0 b j := by
  rw [val_main_v63_apply, val_main_v61_apply, val_main_v59_apply,
    show idx_main_v59 (idx_main_v61 (ix3 b i j)) = ix2 b i from eq_ix2 _,
    val_main_v62_apply, val_main_v60_apply, show idx_main_v60 (idx_main_v62 (ix3 b i j)) = ix2 b j from eq_ix2 _,
    ctr0_at, ctr0_at]
  rfl

theorem diff1_at (b : Fin 1024) (i j : Fin 192) :
    val_main_v68 (F := Ideal) x0 x1 (ix3 b i j)
      = centre (boxes x0) (boxes x1) 1 b i - centre (boxes x0) (boxes x1) 1 b j := by
  rw [val_main_v68_apply, val_main_v66_apply, val_main_v64_apply,
    show idx_main_v64 (idx_main_v66 (ix3 b i j)) = ix2 b i from eq_ix2 _,
    val_main_v67_apply, val_main_v65_apply, show idx_main_v65 (idx_main_v67 (ix3 b i j)) = ix2 b j from eq_ix2 _,
    ctr1_at, ctr1_at]
  rfl

/-- The distance of the centres of rooms i and j in batch row b. -/
theorem dist_at (b : Fin 1024) (i j : Fin 192) :
    FloatOps.hostUnary (F := Ideal) (φ := .f32) .sqrt (val_main_v71 (F := Ideal) x0 x1 (ix3 b i j)) = centreDist (boxes x0) (boxes x1) b i j := by
  rw [val_main_v71_apply, val_main_v69_apply, val_main_v70_apply, diff0_at, diff1_at]
  rfl

/-- The batch mean of a pair's centre distance, for a pair the mask selects: the inner select, whose condition is
    the same mask bit at every batch row, then keeps the squared distance everywhere. -/
theorem pairDist (p : S192x192.Idx) (h : val_main_v75 (F := Ideal) x4 p = 1#1) :
    val_main_v81 (F := Ideal) x0 x1 x4 p = meanOfBatch (sumDist (boxes x0) (boxes x1) (p 0) (p 1)) := by
  rw [val_main_v81_apply, val_main_v79_apply, val_main_cst_12_apply, val_main_v80_apply, val_main_cst_13_apply]
  simp only [Ideal.ofBits_def, Ideal.hostDivf_def, Ideal.ofBits_zero_f32, zero_add]
  unfold meanOfBatch sumDist
  congr 1
  refine Finset.sum_congr rfl fun k _ => ?_
  rw [val_main_v78_apply, val_main_v77_apply, val_main_call4_v1_apply, val_main_v76_apply,
    show idx_main_v76 (idx_main_call4_v1 (idx_main_v79 p k)) = p from (eq_ix2 _).trans (eq_ix2 p).symm, h, select_one,
    show idx_main_v79 p k = ix3 (n1 := 192) (n2 := 192) k (p 0) (p 1) from eq_ix3 _]
  exact dist_at x0 x1 k (p 0) (p 1)

end Arrays

/-! ## The five results -/

/-- The sum of the squared differences over all coordinates is the sum over rows and rooms of the two coordinates'. -/
theorem sumSq (x y : S1024x192x2.Idx → EReal) :
    ∑ q : S1024x192x2.Idx, (x q - y q) * (x q - y q) = sumSqErr (boxes x) (boxes y) := by
  rw [sum_idx3]
  unfold sumSqErr sqErr boxes
  exact Finset.sum_congr rfl fun b _ => Finset.sum_congr rfl fun r _ => Fin.sum_univ_two _

theorem position (x0 x2 : (⟨S1024x192x2, .f32⟩ : BufTy).Contents (Elt Ideal)) :
    val_main_v3 (F := Ideal) x0 x2 = fun _ => positionLoss (boxes x0) (boxes x2) := by
  funext i
  rw [val_main_v3_apply, val_main_v2_apply, val_main_cst_apply, val_main_cst_0_apply]
  simp only [val_main_v1_apply, val_main_v0_apply, Ideal.ofBits_def, Ideal.hostDivf_def, Ideal.subf_def, Ideal.mulf_def,
    Ideal.ofBits_zero_f32, zero_add]
  rw [sumSq]
  rfl

theorem size (x1 x3 : (⟨S1024x192x2, .f32⟩ : BufTy).Contents (Elt Ideal)) :
    val_main_v7 (F := Ideal) x1 x3 = fun _ => sizeLoss (boxes x1) (boxes x3) := by
  funext i
  rw [val_main_v7_apply, val_main_v6_apply, val_main_cst_1_apply, val_main_cst_2_apply]
  simp only [val_main_v5_apply, val_main_v4_apply, Ideal.ofBits_def, Ideal.hostDivf_def, Ideal.subf_def, Ideal.mulf_def,
    Ideal.ofBits_zero_f32, zero_add]
  rw [sumSq]
  rfl

theorem overlap (x0 x1 : (⟨S1024x192x2, .f32⟩ : BufTy).Contents (Elt Ideal)) :
    val_main_v51 (F := Ideal) x0 x1 = fun _ => overlapPenalty (val_main_v9 (F := Ideal)) (boxes x0) (boxes x1) := by
  funext i
  rw [val_main_v51_apply, val_main_cst_8_apply]
  unfold overlapPenalty maskedTotal
  simp only [Ideal.ofBits_def, Ideal.ofBits_zero_f32, zero_add]
  refine Finset.sum_congr rfl fun p _ => ?_
  rw [val_main_v50_apply, pairOverlap, val_main_call3_v1_apply, val_main_call3_v0_apply, val_main_cst_7_apply]
  simp only [Ideal.ofBits_def, Ideal.ofBits_zero_f32]

theorem adjacency (x0 x1 : (⟨S1024x192x2, .f32⟩ : BufTy).Contents (Elt Ideal)) (x4 : (⟨S1x192x192, .i32⟩ : BufTy).Contents (Elt Ideal)) :
    val_main_v83 (F := Ideal) x0 x1 x4 = fun _ => adjacencyLoss (val_main_v75 (F := Ideal) x4) (boxes x0) (boxes x1) := by
  funext i
  rw [val_main_v83_apply, val_main_cst_15_apply]
  unfold adjacencyLoss maskedTotal
  simp only [Ideal.ofBits_def, Ideal.ofBits_zero_f32, zero_add]
  refine Finset.sum_congr rfl fun p _ => ?_
  rw [val_main_v82_apply, val_main_call5_v1_apply, val_main_call5_v0_apply, val_main_cst_14_apply]
  by_cases h : val_main_v75 (F := Ideal) x4 p = 1#1
  · simp only [h, select_one, pairDist x0 x1 x4 p h]
  · simp only [eq_zero_of_ne_one h, select_zero, Ideal.ofBits_def, Ideal.ofBits_zero_f32]

theorem total (x0 x1 x2 x3 : (⟨S1024x192x2, .f32⟩ : BufTy).Contents (Elt Ideal)) (x4 : (⟨S1x192x192, .i32⟩ : BufTy).Contents (Elt Ideal)) :
    val_main_v90 (F := Ideal) x0 x1 x2 x3 x4 = fun _ => totalLoss (positionLoss (boxes x0) (boxes x2)) (sizeLoss (boxes x1) (boxes x3))
      (overlapPenalty (val_main_v9 (F := Ideal)) (boxes x0) (boxes x1)) (adjacencyLoss (val_main_v75 (F := Ideal) x4) (boxes x0) (boxes x1)) := by
  funext i
  rw [val_main_v90_apply, val_main_v88_apply, val_main_v89_apply, val_main_v86_apply, val_main_v87_apply,
    val_main_v84_apply, val_main_v85_apply, position, size, overlap, adjacency]
  rfl

end Cert.FloorPlan.Ref

end
-- ==== Proof.KernelBlocks.lean ====
/-
  The kernel's eight input windows, read at an index. Before the region the host splits each [1024, 192, 2] box
  array into its two coordinates (a slice of the last axis, then the unit axis dropped); window `w` stages rows
  `8 t … 8 t + 7` of its [1024, 192] array at grid point `t` (the index map sends core `c`'s `n`-th step to block
  `64 c + n`, which is the point's own number `t`). So entry `(b', r)` of window `w`'s block at point `t` is entry
  `(8 t + b', r, k)` of the box array the window's array was cut from.
-/
import proofs.«101962_j64450279244066_1_alg».proof.Proof.Patched.KernelIdeal.Frame
import proofs.«101962_j64450279244066_1_alg».proof.Proof.LossSpec
import proofs.«101962_j64450279244066_1_alg».proof.Proof.LossSums
import Idealize.ShloMosaic.Lib.Pipeline.Value
import Idealize.ShloMosaic.Lib.StableHlo.Run
import Idealize.ShloMosaic.Lib.ValueIdx

noncomputable section

namespace Cert.FloorPlan.Blocks

open Idealize.ShloMosaic Idealize.ShloMosaic.TcCoe Idealize.SL.Sem Idealize.ShloMosaic.ValueIdx Cert.FloorPlan
open Cert.KernelIdeal Cert.KernelIdeal.Gen Cert.KernelIdeal.GenP

variable (m : (ℓ : Loc nD τ sig) → Buf (Elt Ideal) ℓ)

/-- Coordinate `k` of a box array as a [1024, 192] array: the slice `[:, :, k:k+1]` with its unit axis dropped,
    read at `(b, r)`, is the box array at `(b, r, k)`. -/
theorem coord_apply {α : Type} (A : S1024x192x2.Idx → α) (k : Fin 2)
    (hs : S1024x192x2.Slices ![0, 0, k.val] S1024x192x1) (hc : S1024x192x1.ShapeCasts S1024x192) (b : Fin 1024) (r : Fin 192) :
    shapeCast S1024x192 (extractStridedSlice S1024x192x1 ![0, 0, k.val] A hs) hc (ix2 b r) = A (ix3 b r k) := by
  refine (shapeCast_apply _ hc (ix2 b r) (ix3 b r (0 : Fin 1)) ?_).trans ?_
  · rw [Shape.rowMajor_val_three, Shape.rowMajor_val_two]
    simp
  · refine extractStridedSlice_apply _ A hs (ix3 b r (0 : Fin 1)) (ix3 b r k) ?_
    intro a
    match a with
    | ⟨0, _⟩ => simp
    | ⟨1, _⟩ => simp
    | ⟨2, _⟩ => simp

/-! ## The eight arrays the windows are cut from -/

/-- The array of window 0 as the region finds it: coordinate 0 of `main_arg0`. -/
theorem arr0_apply (c : Dev nD) (b : Fin 1024) (r : Fin 192) :
    (V m c main_v1 : S1024x192.Idx → EReal) (ix2 b r) = boxes (m ((c : Thread nD τ).loc main_arg0)) b r 0 := by
  have e : (V m c main_v1 : S1024x192.Idx → EReal)
      = shapeCast S1024x192 (extractStridedSlice S1024x192x1 ![0, 0, 0] (m ((c : Thread nD τ).loc main_arg0)) slices_S1024x192x2_S1024x192x1_0_0_0) shapeCasts_S1024x192x1_S1024x192 := by
    show StableHlo.after hostOps0 (fun b => m (c, b)) (Proc.devRef .tc main_v1) = _
    after_results
    rfl
  rw [e]
  exact coord_apply _ (0 : Fin 2) _ _ b r

/-- The array of window 1 as the region finds it: coordinate 1 of `main_arg0`. -/
theorem arr1_apply (c : Dev nD) (b : Fin 1024) (r : Fin 192) :
    (V m c main_v3 : S1024x192.Idx → EReal) (ix2 b r) = boxes (m ((c : Thread nD τ).loc main_arg0)) b r 1 := by
  have e : (V m c main_v3 : S1024x192.Idx → EReal)
      = shapeCast S1024x192 (extractStridedSlice S1024x192x1 ![0, 0, 1] (m ((c : Thread nD τ).loc main_arg0)) slices_S1024x192x2_S1024x192x1_0_0_1) shapeCasts_S1024x192x1_S1024x192 := by
    show StableHlo.after hostOps0 (fun b => m (c, b)) (Proc.devRef .tc main_v3) = _
    after_results
    rfl
  rw [e]
  exact coord_apply _ (1 : Fin 2) _ _ b r

/-- The array of window 2 as the region finds it: coordinate 0 of `main_arg1`. -/
theorem arr2_apply (c : Dev nD) (b : Fin 1024) (r : Fin 192) :
    (V m c main_v5 : S1024x192.Idx → EReal) (ix2 b r) = boxes (m ((c : Thread nD τ).loc main_arg1)) b r 0 := by
  have e : (V m c main_v5 : S1024x192.Idx → EReal)
      = shapeCast S1024x192 (extractStridedSlice S1024x192x1 ![0, 0, 0] (m ((c : Thread nD τ).loc main_arg1)) slices_S1024x192x2_S1024x192x1_0_0_0) shapeCasts_S1024x192x1_S1024x192 := by
    show StableHlo.after hostOps0 (fun b => m (c, b)) (Proc.devRef .tc main_v5) = _
    after_results
    rfl
  rw [e]
  exact coord_apply _ (0 : Fin 2) _ _ b r

/-- The array of window 3 as the region finds it: coordinate 1 of `main_arg1`. -/
theorem arr3_apply (c : Dev nD) (b : Fin 1024) (r : Fin 192) :
    (V m c main_v7 : S1024x192.Idx → EReal) (ix2 b r) = boxes (m ((c : Thread nD τ).loc main_arg1)) b r 1 := by
  have e : (V m c main_v7 : S1024x192.Idx → EReal)
      = shapeCast S1024x192 (extractStridedSlice S1024x192x1 ![0, 0, 1] (m ((c : Thread nD τ).loc main_arg1)) slices_S1024x192x2_S1024x192x1_0_0_1) shapeCasts_S1024x192x1_S1024x192 := by
    show StableHlo.after hostOps0 (fun b => m (c, b)) (Proc.devRef .tc main_v7) = _
    after_results
    rfl
  rw [e]
  exact coord_apply _ (1 : Fin 2) _ _ b r

/-- The array of window 4 as the region finds it: coordinate 0 of `main_arg2`. -/
theorem arr4_apply (c : Dev nD) (b : Fin 1024) (r : Fin 192) :
    (V m c main_v9 : S1024x192.Idx → EReal) (ix2 b r) = boxes (m ((c : Thread nD τ).loc main_arg2)) b r 0 := by
  have e : (V m c main_v9 : S1024x192.Idx → EReal)
      = shapeCast S1024x192 (extractStridedSlice S1024x192x1 ![0, 0, 0] (m ((c : Thread nD τ).loc main_arg2)) slices_S1024x192x2_S1024x192x1_0_0_0) shapeCasts_S1024x192x1_S1024x192 := by
    show StableHlo.after hostOps0 (fun b => m (c, b)) (Proc.devRef .tc main_v9) = _
    after_results
    rfl
  rw [e]
  exact coord_apply _ (0 : Fin 2) _ _ b r

/-- The array of window 5 as the region finds it: coordinate 1 of `main_arg2`. -/
theorem arr5_apply (c : Dev nD) (b : Fin 1024) (r : Fin 192) :
    (V m c main_v11 : S1024x192.Idx → EReal) (ix2 b r) = boxes (m ((c : Thread nD τ).loc main_arg2)) b r 1 := by
  have e : (V m c main_v11 : S1024x192.Idx → EReal)
      = shapeCast S1024x192 (extractStridedSlice S1024x192x1 ![0, 0, 1] (m ((c : Thread nD τ).loc main_arg2)) slices_S1024x192x2_S1024x192x1_0_0_1) shapeCasts_S1024x192x1_S1024x192 := by
    show StableHlo.after hostOps0 (fun b => m (c, b)) (Proc.devRef .tc main_v11) = _
    after_results
    rfl
  rw [e]
  exact coord_apply _ (1 : Fin 2) _ _ b r

/-- The array of window 6 as the region finds it: coordinate 0 of `main_arg3`. -/
theorem arr6_apply (c : Dev nD) (b : Fin 1024) (r : Fin 192) :
    (V m c main_v13 : S1024x192.Idx → EReal) (ix2 b r) = boxes (m ((c : Thread nD τ).loc main_arg3)) b r 0 := by
  have e : (V m c main_v13 : S1024x192.Idx → EReal)
      = shapeCast S1024x192 (extractStridedSlice S1024x192x1 ![0, 0, 0] (m ((c : Thread nD τ).loc main_arg3)) slices_S1024x192x2_S1024x192x1_0_0_0) shapeCasts_S1024x192x1_S1024x192 := by
    show StableHlo.after hostOps0 (fun b => m (c, b)) (Proc.devRef .tc main_v13) = _
    after_results
    rfl
  rw [e]
  exact coord_apply _ (0 : Fin 2) _ _ b r

/-- The array of window 7 as the region finds it: coordinate 1 of `main_arg3`. -/
theorem arr7_apply (c : Dev nD) (b : Fin 1024) (r : Fin 192) :
    (V m c main_v15 : S1024x192.Idx → EReal) (ix2 b r) = boxes (m ((c : Thread nD τ).loc main_arg3)) b r 1 := by
  have e : (V m c main_v15 : S1024x192.Idx → EReal)
      = shapeCast S1024x192 (extractStridedSlice S1024x192x1 ![0, 0, 1] (m ((c : Thread nD τ).loc main_arg3)) slices_S1024x192x2_S1024x192x1_0_0_1) shapeCasts_S1024x192x1_S1024x192 := by
    show StableHlo.after hostOps0 (fun b => m (c, b)) (Proc.devRef .tc main_v15) = _
    after_results
    rfl
  rw [e]
  exact coord_apply _ (1 : Fin 2) _ _ b r

/-! ## A window's block at a grid point -/

/-- The eight input blocks at point `t`, at their literal type. -/
abbrev blk0 (c : Dev nD) (t : Fin cfg0.N) : Vec Ideal S8x192 .f32 := iblk m c 0 t
abbrev blk1 (c : Dev nD) (t : Fin cfg0.N) : Vec Ideal S8x192 .f32 := iblk m c 1 t
abbrev blk2 (c : Dev nD) (t : Fin cfg0.N) : Vec Ideal S8x192 .f32 := iblk m c 2 t
abbrev blk3 (c : Dev nD) (t : Fin cfg0.N) : Vec Ideal S8x192 .f32 := iblk m c 3 t
abbrev blk4 (c : Dev nD) (t : Fin cfg0.N) : Vec Ideal S8x192 .f32 := iblk m c 4 t
abbrev blk5 (c : Dev nD) (t : Fin cfg0.N) : Vec Ideal S8x192 .f32 := iblk m c 5 t
abbrev blk6 (c : Dev nD) (t : Fin cfg0.N) : Vec Ideal S8x192 .f32 := iblk m c 6 t
abbrev blk7 (c : Dev nD) (t : Fin cfg0.N) : Vec Ideal S8x192 .f32 := iblk m c 7 t

/-- Every input window's index map sends point `t` to block `(t, 0)`. -/
theorem index_in : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- Row `b'` of tile `t`, as a row of the batch. -/
theorem row_eq (t : Fin cfg0.N) (b' : Fin 8) (h : 8 * t.val + b'.val < 1024) :
    (⟨8 * t.val + b'.val, h⟩ : Fin 1024) = tileRow t.val b' :=
  Fin.ext (tileRow_val t.val (lt_of_lt_of_eq t.isLt (show cfg0.N = 128 from N_0)) b').symm

/-- Window 0's block at point `t`, entry `(b', r)`: coordinate 0 of `main_arg0` at row `8 t + b'`. -/
theorem blk0_apply (c : Dev nD) (t : Fin cfg0.N) (b' : Fin 8) (r : Fin 192) :
    blk0 m c t (ix2 b' r) = boxes (m ((c : Thread nD τ).loc main_arg0)) (tileRow t.val b') r 0 := by
  have hN : t.val < 128 := lt_of_lt_of_eq t.isLt (show cfg0.N = 128 from N_0)
  have hb : 8 * t.val + b'.val < 1024 := by have := b'.isLt; omega
  have hi := (index_in t).1
  rw [← row_eq t b' hb, ← arr0_apply m c ⟨8 * t.val + b'.val, hb⟩ r]
  unfold blk0 iblk
  rw [View.read_apply]
  show V m c main_v1 _ = V m c main_v1 _
  congr 1
  funext a
  apply Fin.ext
  match a with
  | ⟨0, _⟩ => show win0_0.index t 0 * 8 + 1 * b'.val = 8 * t.val + b'.val; rw [hi.1]; omega
  | ⟨1, _⟩ => show win0_0.index t 1 * 192 + 1 * r.val = r.val; rw [hi.2]; omega

/-- Window 1's block at point `t`, entry `(b', r)`: coordinate 1 of `main_arg0` at row `8 t + b'`. -/
theorem blk1_apply (c : Dev nD) (t : Fin cfg0.N) (b' : Fin 8) (r : Fin 192) :
    blk1 m c t (ix2 b' r) = boxes (m ((c : Thread nD τ).loc main_arg0)) (tileRow t.val b') r 1 := by
  have hN : t.val < 128 := lt_of_lt_of_eq t.isLt (show cfg0.N = 128 from N_0)
  have hb : 8 * t.val + b'.val < 1024 := by have := b'.isLt; omega
  have hi := (index_in t).2.1
  rw [← row_eq t b' hb, ← arr1_apply m c ⟨8 * t.val + b'.val, hb⟩ r]
  unfold blk1 iblk
  rw [View.read_apply]
  show V m c main_v3 _ = V m c main_v3 _
  congr 1
  funext a
  apply Fin.ext
  match a with
  | ⟨0, _⟩ => show win0_1.index t 0 * 8 + 1 * b'.val = 8 * t.val + b'.val; rw [hi.1]; omega
  | ⟨1, _⟩ => show win0_1.index t 1 * 192 + 1 * r.val = r.val; rw [hi.2]; omega

/-- Window 2's block at point `t`, entry `(b', r)`: coordinate 0 of `main_arg1` at row `8 t + b'`. -/
theorem blk2_apply (c : Dev nD) (t : Fin cfg0.N) (b' : Fin 8) (r : Fin 192) :
    blk2 m c t (ix2 b' r) = boxes (m ((c : Thread nD τ).loc main_arg1)) (tileRow t.val b') r 0 := by
  have hN : t.val < 128 := lt_of_lt_of_eq t.isLt (show cfg0.N = 128 from N_0)
  have hb : 8 * t.val + b'.val < 1024 := by have := b'.isLt; omega
  have hi := (index_in t).2.2.1
  rw [← row_eq t b' hb, ← arr2_apply m c ⟨8 * t.val + b'.val, hb⟩ r]
  unfold blk2 iblk
  rw [View.read_apply]
  show V m c main_v5 _ = V m c main_v5 _
  congr 1
  funext a
  apply Fin.ext
  match a with
  | ⟨0, _⟩ => show win0_2.index t 0 * 8 + 1 * b'.val = 8 * t.val + b'.val; rw [hi.1]; omega
  | ⟨1, _⟩ => show win0_2.index t 1 * 192 + 1 * r.val = r.val; rw [hi.2]; omega

/-- Window 3's block at point `t`, entry `(b', r)`: coordinate 1 of `main_arg1` at row `8 t + b'`. -/
theorem blk3_apply (c : Dev nD) (t : Fin cfg0.N) (b' : Fin 8) (r : Fin 192) :
    blk3 m c t (ix2 b' r) = boxes (m ((c : Thread nD τ).loc main_arg1)) (tileRow t.val b') r 1 := by
  have hN : t.val < 128 := lt_of_lt_of_eq t.isLt (show cfg0.N = 128 from N_0)
  have hb : 8 * t.val + b'.val < 1024 := by have := b'.isLt; omega
  have hi := (index_in t).2.2.2.1
  rw [← row_eq t b' hb, ← arr3_apply m c ⟨8 * t.val + b'.val, hb⟩ r]
  unfold blk3 iblk
  rw [View.read_apply]
  show V m c main_v7 _ = V m c main_v7 _
  congr 1
  funext a
  apply Fin.ext
  match a with
  | ⟨0, _⟩ => show win0_3.index t 0 * 8 + 1 * b'.val = 8 * t.val + b'.val; rw [hi.1]; omega
  | ⟨1, _⟩ => show win0_3.index t 1 * 192 + 1 * r.val = r.val; rw [hi.2]; omega

/-- Window 4's block at point `t`, entry `(b', r)`: coordinate 0 of `main_arg2` at row `8 t + b'`. -/
theorem blk4_apply (c : Dev nD) (t : Fin cfg0.N) (b' : Fin 8) (r : Fin 192) :
    blk4 m c t (ix2 b' r) = boxes (m ((c : Thread nD τ).loc main_arg2)) (tileRow t.val b') r 0 := by
  have hN : t.val < 128 := lt_of_lt_of_eq t.isLt (show cfg0.N = 128 from N_0)
  have hb : 8 * t.val + b'.val < 1024 := by have := b'.isLt; omega
  have hi := (index_in t).2.2.2.2.1
  rw [← row_eq t b' hb, ← arr4_apply m c ⟨8 * t.val + b'.val, hb⟩ r]
  unfold blk4 iblk
  rw [View.read_apply]
  show V m c main_v9 _ = V m c main_v9 _
  congr 1
  funext a
  apply Fin.ext
  match a with
  | ⟨0, _⟩ => show win0_4.index t 0 * 8 + 1 * b'.val = 8 * t.val + b'.val; rw [hi.1]; omega
  | ⟨1, _⟩ => show win0_4.index t 1 * 192 + 1 * r.val = r.val; rw [hi.2]; omega

/-- Window 5's block at point `t`, entry `(b', r)`: coordinate 1 of `main_arg2` at row `8 t + b'`. -/
theorem blk5_apply (c : Dev nD) (t : Fin cfg0.N) (b' : Fin 8) (r : Fin 192) :
    blk5 m c t (ix2 b' r) = boxes (m ((c : Thread nD τ).loc main_arg2)) (tileRow t.val b') r 1 := by
  have hN : t.val < 128 := lt_of_lt_of_eq t.isLt (show cfg0.N = 128 from N_0)
  have hb : 8 * t.val + b'.val < 1024 := by have := b'.isLt; omega
  have hi := (index_in t).2.2.2.2.2.1
  rw [← row_eq t b' hb, ← arr5_apply m c ⟨8 * t.val + b'.val, hb⟩ r]
  unfold blk5 iblk
  rw [View.read_apply]
  show V m c main_v11 _ = V m c main_v11 _
  congr 1
  funext a
  apply Fin.ext
  match a with
  | ⟨0, _⟩ => show win0_5.index t 0 * 8 + 1 * b'.val = 8 * t.val + b'.val; rw [hi.1]; omega
  | ⟨1, _⟩ => show win0_5.index t 1 * 192 + 1 * r.val = r.val; rw [hi.2]; omega

/-- Window 6's block at point `t`, entry `(b', r)`: coordinate 0 of `main_arg3` at row `8 t + b'`. -/
theorem blk6_apply (c : Dev nD) (t : Fin cfg0.N) (b' : Fin 8) (r : Fin 192) :
    blk6 m c t (ix2 b' r) = boxes (m ((c : Thread nD τ).loc main_arg3)) (tileRow t.val b') r 0 := by
  have hN : t.val < 128 := lt_of_lt_of_eq t.isLt (show cfg0.N = 128 from N_0)
  have hb : 8 * t.val + b'.val < 1024 := by have := b'.isLt; omega
  have hi := (index_in t).2.2.2.2.2.2.1
  rw [← row_eq t b' hb, ← arr6_apply m c ⟨8 * t.val + b'.val, hb⟩ r]
  unfold blk6 iblk
  rw [View.read_apply]
  show V m c main_v13 _ = V m c main_v13 _
  congr 1
  funext a
  apply Fin.ext
  match a with
  | ⟨0, _⟩ => show win0_6.index t 0 * 8 + 1 * b'.val = 8 * t.val + b'.val; rw [hi.1]; omega
  | ⟨1, _⟩ => show win0_6.index t 1 * 192 + 1 * r.val = r.val; rw [hi.2]; omega

/-- Window 7's block at point `t`, entry `(b', r)`: coordinate 1 of `main_arg3` at row `8 t + b'`. -/
theorem blk7_apply (c : Dev nD) (t : Fin cfg0.N) (b' : Fin 8) (r : Fin 192) :
    blk7 m c t (ix2 b' r) = boxes (m ((c : Thread nD τ).loc main_arg3)) (tileRow t.val b') r 1 := by
  have hN : t.val < 128 := lt_of_lt_of_eq t.isLt (show cfg0.N = 128 from N_0)
  have hb : 8 * t.val + b'.val < 1024 := by have := b'.isLt; omega
  have hi := (index_in t).2.2.2.2.2.2.2
  rw [← row_eq t b' hb, ← arr7_apply m c ⟨8 * t.val + b'.val, hb⟩ r]
  unfold blk7 iblk
  rw [View.read_apply]
  show V m c main_v15 _ = V m c main_v15 _
  congr 1
  funext a
  apply Fin.ext
  match a with
  | ⟨0, _⟩ => show win0_7.index t 0 * 8 + 1 * b'.val = 8 * t.val + b'.val; rw [hi.1]; omega
  | ⟨1, _⟩ => show win0_7.index t 1 * 192 + 1 * r.val = r.val; rw [hi.2]; omega

end Cert.FloorPlan.Blocks

end
-- ==== Proof.KernelTile.lean ====
/-
  What one run of the kernel body leaves behind, as arithmetic on the eight input blocks (the tile's x, y, w, h and
  their targets, each 8 rows by 192 rooms) and on what the four accumulators held before: each accumulator gains
  the tile's sum over its 8 rows — of the pairs' intersection areas, of the pairs' centre distances, of the
  squared position errors, of the squared size errors — starting from zero at a core's first tile; and at a core's
  last tile the four outputs receive the accumulators.
-/
import proofs.«101962_j64450279244066_1_alg».proof.Proof.Patched.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.FloorPlan.Tile

open Idealize.ShloMosaic Idealize.ShloMosaic.TcCoe Idealize.SL.Sem Idealize.ShloMosaic.ValueIdx
open Cert.KernelIdeal Cert.KernelIdeal.Gen Cert.KernelIdeal.GenP

/-! ## A tile's sums, over its blocks -/

/-- Along one coordinate (block `p` of positions, `s` of sizes), in row `b'` of the tile: the length of the
    intersection of rooms `i` and `j`'s intervals. -/
def lenOf (p s : S8x192.Idx → EReal) (b' : Fin 8) (i j : Fin 192) : EReal :=
  max (min (p (ix2 b' i) + s (ix2 b' i)) (p (ix2 b' j) + s (ix2 b' j)) - max (p (ix2 b' i)) (p (ix2 b' j))) 0

/-- The tile's sum of intersection areas, pair by pair. -/
def overlapOf (x y w h : S8x192.Idx → EReal) (q : S192x192.Idx) : EReal :=
  ∑ b' : Fin 8, lenOf x w b' (q 0) (q 1) * lenOf y h b' (q 0) (q 1)

/-- A room's centre along one coordinate. -/
def centreOf (p s : S8x192.Idx → EReal) (b' : Fin 8) (r : Fin 192) : EReal :=
  p (ix2 b' r) + Ideal.ofBits .f32 0x3F000000#32 * s (ix2 b' r)

/-- The tile's sum of centre distances, pair by pair. -/
def distOf (x y w h : S8x192.Idx → EReal) (q : S192x192.Idx) : EReal :=
  ∑ b' : Fin 8, Ideal.sqrt ((centreOf x w b' (q 0) - centreOf x w b' (q 1)) * (centreOf x w b' (q 0) - centreOf x w b' (q 1))
    + (centreOf y h b' (q 0) - centreOf y h b' (q 1)) * (centreOf y h b' (q 0) - centreOf y h b' (q 1)))

/-- The tile's sum of squared errors of two coordinates against their targets. -/
def sqErrOf (u0 u1 v0 v1 : S8x192.Idx → EReal) : EReal :=
  ∑ b' : Fin 8, ∑ r : Fin 192, ((u0 (ix2 b' r) - v0 (ix2 b' r)) * (u0 (ix2 b' r) - v0 (ix2 b' r))
    + (u1 (ix2 b' r) - v1 (ix2 b' r)) * (u1 (ix2 b' r) - v1 (ix2 b' r)))

/-! ## Layout operations and sums, read at an index -/

section Layout
variable {α : Type}

/-- A matrix `[a, b]` viewed `[a, b, 1]` and spread along a new last axis reads, at `(p, i, j)`, the matrix at
    `(p, i)`. -/
theorem spreadLast_apply {a b c : ℕ} (v : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (p : Fin a) (i : Fin b) (j : Fin c) :
    broadcastTo ⟨3, ![a, b, c]⟩ (shapeCast ⟨3, ![a, b, 1]⟩ v h1) h2 (ix3 p i j) = v (ix2 p i) := by
  refine (broadcastTo_apply _ h2 (ix3 p i j) (ix3 p i (0 : Fin 1)) fun ax => ?_).trans
    (shapeCast_apply v h1 _ _ ?_)
  · match ax with
    | ⟨0, _⟩ =>
      show p.val = if a = 1 then 0 else p.val
      split
      · have := p.isLt; omega
      · rfl
    | ⟨1, _⟩ =>
      show i.val = if b = 1 then 0 else i.val
      split
      · have := i.isLt; omega
      · rfl
    | ⟨2, _⟩ => rfl
  · rw [Shape.rowMajor_val_three, Shape.rowMajor_val_two]
    show p.val * b + i.val = (p.val * b + i.val) * 1 + 0
    omega

/-- A matrix `[a, c]` viewed `[a, 1, c]` and spread along a new middle axis reads, at `(p, i, j)`, the matrix at
    `(p, j)`. -/
theorem spreadMid_apply {a b c : ℕ} (v : (⟨2, ![a, c]⟩ : Shape).Idx → α)
    (h1 : (⟨2, ![a, c]⟩ : Shape).ShapeCasts ⟨3, ![a, 1, c]⟩)
    (h2 : (⟨3, ![a, 1, c]⟩ : Shape).Broadcasts ⟨3, ![a, b, c]⟩) (p : Fin a) (i : Fin b) (j : Fin c) :
    broadcastTo ⟨3, ![a, b, c]⟩ (shapeCast ⟨3, ![a, 1, c]⟩ v h1) h2 (ix3 p i j) = v (ix2 p j) := by
  refine (broadcastTo_apply _ h2 (ix3 p i j) (ix3 p (0 : Fin 1) j) fun ax => ?_).trans
    (shapeCast_apply v h1 _ _ ?_)
  · match ax with
    | ⟨0, _⟩ =>
      show p.val = if a = 1 then 0 else p.val
      split
      · have := p.isLt; omega
      · rfl
    | ⟨1, _⟩ => rfl
    | ⟨2, _⟩ =>
      show j.val = if c = 1 then 0 else j.val
      split
      · have := j.isLt; omega
      · rfl
  · rw [Shape.rowMajor_val_three, Shape.rowMajor_val_two]
    show p.val * c + j.val = (p.val * 1 + 0) * c + j.val
    rw [Nat.mul_one, Nat.add_zero]

end Layout

section Sums
variable {φ : FTy}

/-- A stack of `n` matrices summed along the stack reads, at `(i, j)`, the sum over the stack of the entries at
    `(i, j)`. -/
theorem sumStack_apply {n a b : ℕ} (src : FVec Ideal ⟨3, ![n, a, b]⟩ φ) (acc : BitVec φ.bits)
    (h : (⟨3, ![n, a, b]⟩ : Shape).Reduces [0] ⟨2, ![a, b]⟩) (hφ : FKind.Formats φ)
    (hacc : acc = FKind.add.neutral φ hφ) (i : Fin a) (j : Fin b) :
    multiReduction .add [0] ⟨2, ![a, b]⟩ src acc h hφ hacc (ix2 i j) = ∑ k : Fin n, src (ix3 k i j) := by
  refine (Ideal.multiReduction_add_single src acc h hφ hacc (ix2 i j)).trans ?_
  show ∑ k : Fin n, src (h.lift (ix2 i j) k) = _
  refine Finset.sum_congr rfl fun k _ => congrArg src ?_
  funext c
  match c with
  | ⟨0, _⟩ => rfl
  | ⟨1, _⟩ => rfl
  | ⟨2, _⟩ => rfl

/-- A matrix summed along its rows' entries reads, at row `p`, the sum of that row. -/
theorem sumLanes_apply {a b : ℕ} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ r : Fin b, src (ix2 p r) := by
  refine (Ideal.multiReduction_add_single src acc h hφ hacc (ix1 p)).trans ?_
  show ∑ r : Fin b, src (h.lift (ix1 p) r) = _
  refine Finset.sum_congr rfl fun r _ => congrArg src ?_
  funext c
  match c with
  | ⟨0, _⟩ => rfl
  | ⟨1, _⟩ => rfl

end Sums

/-- The one entry of a `[1, 1]` block, extracted at position `(0, 0)`. -/
theorem extractAt_unit {α : Type} (v : S1x1.Idx → α) (h : ∀ a, (![0, 0] : Fin 2 → Nat) a < S1x1.size a) :
    extractAt ![0, 0] v h = v (ix2 (0 : Fin 1) (0 : Fin 1)) :=
  congrArg v (funext fun a => match a with | ⟨0, _⟩ => rfl | ⟨1, _⟩ => rfl)

/-- Every index of a `[1, 1]` block is `(0, 0)`. -/
theorem idx_unit (q : S1x1.Idx) : q = ix2 (0 : Fin 1) (0 : Fin 1) :=
  funext fun a => match a with
    | ⟨0, _⟩ => Fin.ext (Nat.lt_one_iff.mp (q ⟨0, _⟩).isLt)
    | ⟨1, _⟩ => Fin.ext (Nat.lt_one_iff.mp (q ⟨1, _⟩).isLt)

/-! ## The stored values, read at an index -/

/-- A block of positions plus its block of sizes: the far ends. -/
theorem pay19_apply (y h : Vec Ideal S8x192 .f32) (q : S8x192.Idx) :
    k0_pay19 (F := Ideal) y h q = y q + h q := by
  unfold k0_pay19 k0_pay12 k0_pay14
  simp only [shapeCast_self, addf_apply]

/-- The first coordinate's intersection lengths, over rows and pairs of rooms. -/
theorem pay20_apply (x w : Vec Ideal S8x192 .f32) (b : Fin 8) (i j : Fin 192) :
    k0_pay20 (F := Ideal) x w (ix3 b i j) = lenOf x w b i j := by
  unfold k0_pay20 k0_pay11 k0_pay13 lenOf
  simp only [shapeCast_self, maximumf_apply, subf_apply, minimumf_apply, spreadLast_apply, spreadMid_apply,
    addf_apply, broadcast_apply, Ideal.ofBits_def, Ideal.ofBits_zero_f32]

/-- The second coordinate's far ends, spread over the pair's first room … -/
theorem pay21_apply (y h : Vec Ideal S8x192 .f32) (b : Fin 8) (i j : Fin 192) :
    k0_pay21 (F := Ideal) y h (ix3 b i j) = y (ix2 b i) + h (ix2 b i) := by
  unfold k0_pay21
  simp only [spreadLast_apply, pay19_apply]

/-- … and over the pair's second room. -/
theorem pay22_apply (y h : Vec Ideal S8x192 .f32) (b : Fin 8) (i j : Fin 192) :
    k0_pay22 (F := Ideal) y h (ix3 b i j) = y (ix2 b j) + h (ix2 b j) := by
  unfold k0_pay22
  simp only [spreadMid_apply, pay19_apply]

/-- The overlap accumulator's stored value: what it held plus the tile's sum of intersection areas. -/
theorem pay23_apply (x y w h : Vec Ideal S8x192 .f32) (acc : Vec Ideal S192x192 .f32) (i j : Fin 192) :
    k0_pay23 (F := Ideal) (k0_pay12 y) (k0_pay20 x w) (k0_pay21 y h) (k0_pay22 y h) acc (ix2 i j)
      = acc (ix2 i j) + overlapOf x y w h (ix2 i j) := by
  unfold k0_pay23 k0_pay12 overlapOf
  simp only [shapeCast_self, addf_apply]
  refine congrArg (acc (ix2 i j) + ·) ((sumStack_apply _ _ _ _ _ i j).trans ?_)
  refine Finset.sum_congr rfl fun b _ => ?_
  unfold lenOf
  simp only [mulf_apply, pay20_apply, maximumf_apply, subf_apply, minimumf_apply, pay21_apply, pay22_apply,
    spreadLast_apply, spreadMid_apply, broadcast_apply, Ideal.ofBits_def, Ideal.ofBits_zero_f32]
  rfl

/-- The distance accumulator's stored value: what it held plus the tile's sum of centre distances. -/
theorem pay24_apply (x y w h : Vec Ideal S8x192 .f32) (acc : Vec Ideal S192x192 .f32) (i j : Fin 192) :
    k0_pay24 (F := Ideal) (k0_pay11 x) (k0_pay12 y) (k0_pay13 w) (k0_pay14 h) acc (ix2 i j)
      = acc (ix2 i j) + distOf x y w h (ix2 i j) := by
  unfold k0_pay24 k0_pay11 k0_pay12 k0_pay13 k0_pay14 distOf
  simp only [shapeCast_self, addf_apply]
  refine congrArg (acc (ix2 i j) + ·) ((sumStack_apply _ _ _ _ _ i j).trans ?_)
  refine Finset.sum_congr rfl fun b _ => ?_
  unfold centreOf
  show Ideal.sqrt _ = _
  simp only [mulf_apply, addf_apply, subf_apply, spreadLast_apply, spreadMid_apply, broadcast_apply, Ideal.ofBits_def]

/-- A squared-error cell's stored value: what it held plus the tile's sum, over rows and rooms, of the two squared
    errors (the first already squared, the second a difference yet to be squared). -/
theorem pay1_apply (s d : FVec Ideal S8x192 .f32) (acc : Vec Ideal S1x1 .f32) (q : S1x1.Idx) :
    k0_pay1 (F := Ideal) s d acc q
      = acc q + ∑ b' : Fin 8, ∑ r : Fin 192, (s (ix2 b' r) + d (ix2 b' r) * d (ix2 b' r)) := by
  unfold k0_pay1
  simp only [shapeCast_self, addf_apply, broadcast_apply]
  refine congrArg (acc q + ·) ?_
  refine (extractAt_unit _ _).trans ?_
  refine (shapeCast_a_1a_apply _ _ (0 : Fin 1) (0 : Fin 1)).trans ?_
  refine (sumLanes_apply _ _ _ _ _ (0 : Fin 1)).trans ?_
  refine Finset.sum_congr rfl fun b' _ => ?_
  refine (shapeCast_a_1a_apply _ _ (0 : Fin 1) b').trans ?_
  refine (sumLanes_apply _ _ _ _ _ b').trans ?_
  refine Finset.sum_congr rfl fun r _ => ?_
  simp only [addf_apply, mulf_apply]

/-- The other squared-error cell's stored value, from the four blocks themselves. -/
theorem pay2_apply (u0 u1 v0 v1 : FVec Ideal S8x192 .f32) (acc : Vec Ideal S1x1 .f32) (q : S1x1.Idx) :
    k0_pay2 (F := Ideal) u0 u1 v0 v1 acc q = acc q + sqErrOf u0 u1 v0 v1 := by
  unfold k0_pay2 sqErrOf
  simp only [shapeCast_self, addf_apply, broadcast_apply]
  refine congrArg (acc q + ·) ?_
  refine (extractAt_unit _ _).trans ?_
  refine (shapeCast_a_1a_apply _ _ (0 : Fin 1) (0 : Fin 1)).trans ?_
  refine (sumLanes_apply _ _ _ _ _ (0 : Fin 1)).trans ?_
  refine Finset.sum_congr rfl fun b' _ => ?_
  refine (shapeCast_a_1a_apply _ _ (0 : Fin 1) b').trans ?_
  refine (sumLanes_apply _ _ _ _ _ b').trans ?_
  refine Finset.sum_congr rfl fun r _ => ?_
  simp only [addf_apply, mulf_apply, subf_apply]

/-- The first cell's stored value, from the four blocks. -/
theorem pay1_blocks (u0 u1 v0 v1 : Vec Ideal S8x192 .f32) (acc : Vec Ideal S1x1 .f32) (q : S1x1.Idx) :
    k0_pay1 (F := Ideal) (k0_pay25 (k0_pay11 u0) (k0_pay15 v0)) (k0_pay26 (k0_pay12 u1) (k0_pay16 v1)) acc q
      = acc q + sqErrOf u0 u1 v0 v1 := by
  refine (pay1_apply _ _ acc q).trans ?_
  unfold k0_pay25 k0_pay26 k0_pay11 k0_pay12 k0_pay15 k0_pay16 sqErrOf
  simp only [shapeCast_self, mulf_apply, subf_apply]

/-- The second cell's stored value, from the four blocks. -/
theorem pay2_blocks (u0 u1 v0 v1 : Vec Ideal S8x192 .f32) (acc : Vec Ideal S1x1 .f32) (q : S1x1.Idx) :
    k0_pay2 (F := Ideal) (k0_pay13 u0) (k0_pay14 u1) (k0_pay17 v0) (k0_pay18 v1) acc q
      = acc q + sqErrOf u0 u1 v0 v1 := by
  refine (pay2_apply _ _ _ _ acc q).trans ?_
  unfold k0_pay13 k0_pay14 k0_pay17 k0_pay18
  simp only [shapeCast_self]

/-- A `[192, 192]` accumulator handed to a `[1, 192, 192]` window reads, at `q`, its entry at `q`'s last two
    coordinates. -/
theorem pay3_apply (v : Vec Ideal S192x192 .f32) (q : S1x192x192.Idx) :
    k0_pay3 (F := Ideal) v q = v (ix2 (q 1) (q 2)) := by
  unfold k0_pay3
  exact (congrArg _ (eq_ix3 q)).trans (shapeCast_ab_1ab_apply v _ (q 0) (q 1) (q 2))

theorem pay4_apply (v : Vec Ideal S192x192 .f32) (q : S1x192x192.Idx) :
    k0_pay4 (F := Ideal) v q = v (ix2 (q 1) (q 2)) := by
  unfold k0_pay4
  exact (congrArg _ (eq_ix3 q)).trans (shapeCast_ab_1ab_apply v _ (q 0) (q 1) (q 2))

/-- A one-cell accumulator handed to a `[1, 1, 1]` window reads its one cell. -/
theorem pay5_apply (v : Vec Ideal S1x1 .f32) (q : S1x1x1.Idx) :
    k0_pay5 (F := Ideal) v q = v (ix2 (0 : Fin 1) (0 : Fin 1)) := by
  unfold k0_pay5
  exact ((congrArg _ (eq_ix3 q)).trans (shapeCast_ab_1ab_apply v _ (q 0) (q 1) (q 2))).trans
    (congrArg v (idx_unit _))

theorem pay6_apply (v : Vec Ideal S1x1 .f32) (q : S1x1x1.Idx) :
    k0_pay6 (F := Ideal) v q = v (ix2 (0 : Fin 1) (0 : Fin 1)) := by
  unfold k0_pay6
  exact ((congrArg _ (eq_ix3 q)).trans (shapeCast_ab_1ab_apply v _ (q 0) (q 1) (q 2))).trans
    (congrArg v (idx_unit _))

/-- The reset's blocks are zero everywhere. -/
theorem pay7_apply (q : S192x192.Idx) : k0_pay7 (F := Ideal) q = 0 := by
  unfold k0_pay7
  simp only [shapeCast_self, broadcast_apply, Ideal.ofBits_def, Ideal.ofBits_zero_f32]

theorem pay8_apply (q : S192x192.Idx) : k0_pay8 (F := Ideal) q = 0 := by
  unfold k0_pay8
  simp only [shapeCast_self, broadcast_apply, Ideal.ofBits_def, Ideal.ofBits_zero_f32]

theorem pay9_apply (q : S1x1.Idx) : k0_pay9 (F := Ideal) q = 0 := by
  unfold k0_pay9
  simp only [shapeCast_self, broadcast_apply, Ideal.ofBits_def, Ideal.ofBits_zero_f32]

theorem pay10_apply (q : S1x1.Idx) : k0_pay10 (F := Ideal) q = 0 := by
  unfold k0_pay10
  simp only [shapeCast_self, broadcast_apply, Ideal.ofBits_def, Ideal.ofBits_zero_f32]

/-! ## The stored values as functions of the index -/

theorem pay23_eq (x y w h : Vec Ideal S8x192 .f32) (acc : Vec Ideal S192x192 .f32) :
    k0_pay23 (F := Ideal) (k0_pay12 y) (k0_pay20 x w) (k0_pay21 y h) (k0_pay22 y h) acc
      = fun q => acc q + overlapOf x y w h q := by
  funext q
  obtain ⟨i, j, rfl⟩ : ∃ i j : Fin 192, q = ix2 i j := ⟨q 0, q 1, eq_ix2 q⟩
  exact pay23_apply x y w h acc i j

theorem pay24_eq (x y w h : Vec Ideal S8x192 .f32) (acc : Vec Ideal S192x192 .f32) :
    k0_pay24 (F := Ideal) (k0_pay11 x) (k0_pay12 y) (k0_pay13 w) (k0_pay14 h) acc
      = fun q => acc q + distOf x y w h q := by
  funext q
  obtain ⟨i, j, rfl⟩ : ∃ i j : Fin 192, q = ix2 i j := ⟨q 0, q 1, eq_ix2 q⟩
  exact pay24_apply x y w h acc i j

theorem pay1_eq (u0 u1 v0 v1 : Vec Ideal S8x192 .f32) (acc : Vec Ideal S1x1 .f32) :
    k0_pay1 (F := Ideal) (k0_pay25 (k0_pay11 u0) (k0_pay15 v0)) (k0_pay26 (k0_pay12 u1) (k0_pay16 v1)) acc
      = fun q => acc q + sqErrOf u0 u1 v0 v1 :=
  funext fun q => pay1_blocks u0 u1 v0 v1 acc q

theorem pay2_eq (u0 u1 v0 v1 : Vec Ideal S8x192 .f32) (acc : Vec Ideal S1x1 .f32) :
    k0_pay2 (F := Ideal) (k0_pay13 u0) (k0_pay14 u1) (k0_pay17 v0) (k0_pay18 v1) acc
      = fun q => acc q + sqErrOf u0 u1 v0 v1 :=
  funext fun q => pay2_blocks u0 u1 v0 v1 acc q

/-! Over the reset's zero blocks. -/

theorem pay23_zero (x y w h : Vec Ideal S8x192 .f32) :
    k0_pay23 (F := Ideal) (k0_pay12 y) (k0_pay20 x w) (k0_pay21 y h) (k0_pay22 y h) (k0_pay7 (F := Ideal))
      = fun q => 0 + overlapOf x y w h q :=
  (pay23_eq x y w h (k0_pay7 (F := Ideal))).trans (funext fun q => congrArg (· + overlapOf x y w h q) (pay7_apply q))

theorem pay24_zero (x y w h : Vec Ideal S8x192 .f32) :
    k0_pay24 (F := Ideal) (k0_pay11 x) (k0_pay12 y) (k0_pay13 w) (k0_pay14 h) (k0_pay8 (F := Ideal))
      = fun q => 0 + distOf x y w h q :=
  (pay24_eq x y w h (k0_pay8 (F := Ideal))).trans (funext fun q => congrArg (· + distOf x y w h q) (pay8_apply q))

theorem pay1_zero (u0 u1 v0 v1 : Vec Ideal S8x192 .f32) :
    k0_pay1 (F := Ideal) (k0_pay25 (k0_pay11 u0) (k0_pay15 v0)) (k0_pay26 (k0_pay12 u1) (k0_pay16 v1)) (k0_pay9 (F := Ideal))
      = fun _ => 0 + sqErrOf u0 u1 v0 v1 :=
  (pay1_eq u0 u1 v0 v1 (k0_pay9 (F := Ideal))).trans (funext fun q => congrArg (· + sqErrOf u0 u1 v0 v1) (pay9_apply q))

theorem pay2_zero (u0 u1 v0 v1 : Vec Ideal S8x192 .f32) :
    k0_pay2 (F := Ideal) (k0_pay13 u0) (k0_pay14 u1) (k0_pay17 v0) (k0_pay18 v1) (k0_pay10 (F := Ideal))
      = fun _ => 0 + sqErrOf u0 u1 v0 v1 :=
  (pay2_eq u0 u1 v0 v1 (k0_pay10 (F := Ideal))).trans (funext fun q => congrArg (· + sqErrOf u0 u1 v0 v1) (pay10_apply q))

/-! Handed to the output windows. -/

theorem out8_eq (x y w h : Vec Ideal S8x192 .f32) (acc : Vec Ideal S192x192 .f32) :
    k0_pay3 (F := Ideal) (k0_pay23 (k0_pay12 y) (k0_pay20 x w) (k0_pay21 y h) (k0_pay22 y h) acc)
      = fun q => acc (ix2 (q 1) (q 2)) + overlapOf x y w h (ix2 (q 1) (q 2)) :=
  funext fun q => (pay3_apply _ q).trans (pay23_apply x y w h acc (q 1) (q 2))

theorem out9_eq (x y w h : Vec Ideal S8x192 .f32) (acc : Vec Ideal S192x192 .f32) :
    k0_pay4 (F := Ideal) (k0_pay24 (k0_pay11 x) (k0_pay12 y) (k0_pay13 w) (k0_pay14 h) acc)
      = fun q => acc (ix2 (q 1) (q 2)) + distOf x y w h (ix2 (q 1) (q 2)) :=
  funext fun q => (pay4_apply _ q).trans (pay24_apply x y w h acc (q 1) (q 2))

theorem out10_eq (u0 u1 v0 v1 : Vec Ideal S8x192 .f32) (acc : Vec Ideal S1x1 .f32) :
    k0_pay5 (F := Ideal) (k0_pay1 (k0_pay25 (k0_pay11 u0) (k0_pay15 v0)) (k0_pay26 (k0_pay12 u1) (k0_pay16 v1)) acc)
      = fun _ => acc (ix2 0 0) + sqErrOf u0 u1 v0 v1 :=
  funext fun q => (pay5_apply _ q).trans (pay1_blocks u0 u1 v0 v1 acc _)

theorem out11_eq (u0 u1 v0 v1 : Vec Ideal S8x192 .f32) (acc : Vec Ideal S1x1 .f32) :
    k0_pay6 (F := Ideal) (k0_pay2 (k0_pay13 u0) (k0_pay14 u1) (k0_pay17 v0) (k0_pay18 v1) acc)
      = fun _ => acc (ix2 0 0) + sqErrOf u0 u1 v0 v1 :=
  funext fun q => (pay6_apply _ q).trans (pay2_blocks u0 u1 v0 v1 acc _)

/-! ## Reading the body's stores back -/

/-- The zero offsets of a whole two-axis block, and of a whole three-axis one. -/
theorem hz : (![0, 0] : Fin 2 → Nat) = fun _ => 0 := funext fun a => by fin_cases a <;> rfl
theorem hz3 : (![0, 0, 0] : Fin 3 → Nat) = fun _ => 0 := funext fun a => by fin_cases a <;> rfl

/-! ## The body's three cases -/

variable (c : Dev nD) (i : grid0.Coords) (arg2 : Memref sig .tc .vmem S8x192 .f32) (harg2 : arg2.IsWhole) (arg3 : Memref sig .tc .vmem S8x192 .f32) (harg3 : arg3.IsWhole) (arg4 : Memref sig .tc .vmem S8x192 .f32) (harg4 : arg4.IsWhole) (arg5 : Memref sig .tc .vmem S8x192 .f32) (harg5 : arg5.IsWhole) (arg6 : Memref sig .tc .vmem S8x192 .f32) (harg6 : arg6.IsWhole) (arg7 : Memref sig .tc .vmem S8x192 .f32) (harg7 : arg7.IsWhole) (arg8 : Memref sig .tc .vmem S8x192 .f32) (harg8 : arg8.IsWhole) (arg9 : Memref sig .tc .vmem S8x192 .f32) (harg9 : arg9.IsWhole) (arg10 : Memref sig .tc .vmem S1x192x192 .f32) (harg10 : arg10.IsWhole) (arg11 : Memref sig .tc .vmem S1x192x192 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S192x192 .f32) (harg14 : arg14.IsWhole) (arg15 : Memref sig .tc .vmem S192x192 .f32) (harg15 : arg15.IsWhole) (arg16 : Memref sig .tc .vmem S1x1 .f32) (harg16 : arg16.IsWhole) (arg17 : Memref sig .tc .vmem S1x1 .f32) (harg17 : arg17.IsWhole)
  (x0 x1 x2 x3 x4 x5 x6 x7 : Vec Ideal S8x192 .f32) (xs0 xs1 : Vec Ideal S192x192 .f32) (xs2 xs3 : Vec Ideal S1x1 .f32)

/-! ### Case A -/

theorem scratchA_0 (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7
      = fun q => 0 + overlapOf x0 x1 x2 x3 q := by
  refine Eq.trans ?_ (pay23_zero x0 x1 x2 x3)
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
  unfold kernelRun0_A
  dsimp only
  sl_unfold_words
  rw [View.canon_cons_unit_zero (S := S192x192) hz, View.readCov_unit_zero (S := S192x192) _ hz]
  simp only [View.readAt_eq_ld, harg2.read_unread, harg3.read_unread, harg4.read_unread, harg5.read_unread, View.ld_unit_zero (S := S8x192) hz]

theorem scratchA_1 (hc0 : cond0_0 i) (hc1 : ¬cond0_1 i) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7
      = fun q => 0 + distOf x0 x1 x2 x3 q := by
  refine Eq.trans ?_ (pay24_zero x0 x1 x2 x3)
  unfold sout0_A_1
  rw [View.read_writes_eq_canon _ _ _ (scover0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
  unfold kernelRun0_A
  dsimp only
  sl_unfold_words
  rw [View.canon_cons_unit_zero (S := S192x192) hz, View.readCov_unit_zero (S := S192x192) _ hz]
  simp only [View.readAt_eq_ld, harg2.read_unread, harg3.read_unread, harg4.read_unread, harg5.read_unread, View.ld_unit_zero (S := S8x192) hz]

theorem scratchA_2 (hc0 : cond0_0 i) (hc1 : ¬cond0_1 i) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7
      = fun q => 0 + sqErrOf x0 x1 x4 x5 := by
  refine Eq.trans ?_ (pay1_zero x0 x1 x4 x5)
  unfold sout0_A_2
  rw [View.read_writes_eq_canon _ _ _ (scover0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
  unfold kernelRun0_A
  dsimp only
  sl_unfold_words
  rw [View.canon_cons_unit_zero (S := S1x1) hz, View.readCov_unit_zero (S := S1x1) _ hz]
  simp only [View.readAt_eq_ld, harg2.read_unread, harg3.read_unread, harg6.read_unread, harg7.read_unread, View.ld_unit_zero (S := S8x192) hz]

theorem scratchA_3 (hc0 : cond0_0 i) (hc1 : ¬cond0_1 i) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7
      = fun q => 0 + sqErrOf x2 x3 x6 x7 := by
  refine Eq.trans ?_ (pay2_zero x2 x3 x6 x7)
  unfold sout0_A_3
  rw [View.read_writes_eq_canon _ _ _ (scover0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7)]
  unfold kernelRun0_A
  dsimp only
  sl_unfold_words
  rw [View.canon_cons_unit_zero (S := S1x1) hz, View.readCov_unit_zero (S := S1x1) _ hz]
  simp only [View.readAt_eq_ld, harg4.read_unread, harg5.read_unread, harg8.read_unread, harg9.read_unread, View.ld_unit_zero (S := S8x192) hz]

/-! ### Case B -/

theorem scratchB_0 (hc0 : ¬cond0_0 i) (hc1 : ¬cond0_1 i) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs0 q + overlapOf x0 x1 x2 x3 q := by
  refine Eq.trans ?_ (pay23_eq x0 x1 x2 x3 xs0)
  unfold sout0_B_0
  rw [View.read_writes_eq_canon _ _ _ (scover0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_B
  dsimp only
  sl_unfold_words
  rw [View.canon_unit_zero hz]
  simp only [View.readAt_eq_ld, harg2.read_unread, harg3.read_unread, harg4.read_unread, harg5.read_unread, harg14.read_unread, View.ld_unit_zero (S := S8x192) hz, View.ld_unit_zero (S := S192x192) hz]

theorem scratchB_1 (hc0 : ¬cond0_0 i) (hc1 : ¬cond0_1 i) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs1 q + distOf x0 x1 x2 x3 q := by
  refine Eq.trans ?_ (pay24_eq x0 x1 x2 x3 xs1)
  unfold sout0_B_1
  rw [View.read_writes_eq_canon _ _ _ (scover0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_B
  dsimp only
  sl_unfold_words
  rw [View.canon_unit_zero hz]
  simp only [View.readAt_eq_ld, harg2.read_unread, harg3.read_unread, harg4.read_unread, harg5.read_unread, harg15.read_unread, View.ld_unit_zero (S := S8x192) hz, View.ld_unit_zero (S := S192x192) hz]

theorem scratchB_2 (hc0 : ¬cond0_0 i) (hc1 : ¬cond0_1 i) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs2 q + sqErrOf x0 x1 x4 x5 := by
  refine Eq.trans ?_ (pay1_eq x0 x1 x4 x5 xs2)
  unfold sout0_B_2
  rw [View.read_writes_eq_canon _ _ _ (scover0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_B
  dsimp only
  sl_unfold_words
  rw [View.canon_unit_zero hz]
  simp only [View.readAt_eq_ld, harg2.read_unread, harg3.read_unread, harg6.read_unread, harg7.read_unread, harg16.read_unread, View.ld_unit_zero (S := S8x192) hz, View.ld_unit_zero (S := S1x1) hz]

theorem scratchB_3 (hc0 : ¬cond0_0 i) (hc1 : ¬cond0_1 i) :
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs3 q + sqErrOf x2 x3 x6 x7 := by
  refine Eq.trans ?_ (pay2_eq x2 x3 x6 x7 xs3)
  unfold sout0_B_3
  rw [View.read_writes_eq_canon _ _ _ (scover0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_B
  dsimp only
  sl_unfold_words
  rw [View.canon_unit_zero hz]
  simp only [View.readAt_eq_ld, harg4.read_unread, harg5.read_unread, harg8.read_unread, harg9.read_unread, harg17.read_unread, View.ld_unit_zero (S := S8x192) hz, View.ld_unit_zero (S := S1x1) hz]

/-! ### Case C -/

theorem scratchC_0 (hc0 : ¬cond0_0 i) (hc1 : cond0_1 i) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs0 q + overlapOf x0 x1 x2 x3 q := by
  refine Eq.trans ?_ (pay23_eq x0 x1 x2 x3 xs0)
  unfold sout0_C_0
  rw [View.read_writes_eq_canon _ _ _ (scover0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz]
  simp only [View.readAt_eq_ld, harg2.read_unread, harg3.read_unread, harg4.read_unread, harg5.read_unread, harg14.read_unread, View.ld_unit_zero (S := S8x192) hz, View.ld_unit_zero (S := S192x192) hz]

theorem scratchC_1 (hc0 : ¬cond0_0 i) (hc1 : cond0_1 i) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs1 q + distOf x0 x1 x2 x3 q := by
  refine Eq.trans ?_ (pay24_eq x0 x1 x2 x3 xs1)
  unfold sout0_C_1
  rw [View.read_writes_eq_canon _ _ _ (scover0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz]
  simp only [View.readAt_eq_ld, harg2.read_unread, harg3.read_unread, harg4.read_unread, harg5.read_unread, harg15.read_unread, View.ld_unit_zero (S := S8x192) hz, View.ld_unit_zero (S := S192x192) hz]

theorem scratchC_2 (hc0 : ¬cond0_0 i) (hc1 : cond0_1 i) :
    sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs2 q + sqErrOf x0 x1 x4 x5 := by
  refine Eq.trans ?_ (pay1_eq x0 x1 x4 x5 xs2)
  unfold sout0_C_2
  rw [View.read_writes_eq_canon _ _ _ (scover0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz]
  simp only [View.readAt_eq_ld, harg2.read_unread, harg3.read_unread, harg6.read_unread, harg7.read_unread, harg16.read_unread, View.ld_unit_zero (S := S8x192) hz, View.ld_unit_zero (S := S1x1) hz]

theorem scratchC_3 (hc0 : ¬cond0_0 i) (hc1 : cond0_1 i) :
    sout0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs3 q + sqErrOf x2 x3 x6 x7 := by
  refine Eq.trans ?_ (pay2_eq x2 x3 x6 x7 xs3)
  unfold sout0_C_3
  rw [View.read_writes_eq_canon _ _ _ (scover0_C_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz]
  simp only [View.readAt_eq_ld, harg4.read_unread, harg5.read_unread, harg8.read_unread, harg9.read_unread, harg17.read_unread, View.ld_unit_zero (S := S8x192) hz, View.ld_unit_zero (S := S1x1) hz]

/-! ### What the last tile hands to the outputs -/

theorem outC_8 (hc0 : ¬cond0_0 i) (hc1 : cond0_1 i) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs0 (ix2 (q 1) (q 2)) + overlapOf x0 x1 x2 x3 (ix2 (q 1) (q 2)) := by
  refine Eq.trans ?_ (out8_eq x0 x1 x2 x3 xs0)
  unfold out0_C_8
  rw [View.read_writes_eq_canon _ _ _ (cover0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz3]
  simp only [View.readAt_eq_ld, harg2.read_unread, harg3.read_unread, harg4.read_unread, harg5.read_unread, harg14.read_unread, View.ld_unit_zero (S := S8x192) hz, View.ld_unit_zero (S := S192x192) hz, View.readCov_unit_zero (S := S192x192) _ hz]

theorem outC_9 (hc0 : ¬cond0_0 i) (hc1 : cond0_1 i) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun q => xs1 (ix2 (q 1) (q 2)) + distOf x0 x1 x2 x3 (ix2 (q 1) (q 2)) := by
  refine Eq.trans ?_ (out9_eq x0 x1 x2 x3 xs1)
  unfold out0_C_9
  rw [View.read_writes_eq_canon _ _ _ (cover0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz3]
  simp only [View.readAt_eq_ld, harg2.read_unread, harg3.read_unread, harg4.read_unread, harg5.read_unread, harg15.read_unread, View.ld_unit_zero (S := S8x192) hz, View.ld_unit_zero (S := S192x192) hz, View.readCov_unit_zero (S := S192x192) _ hz]

theorem outC_10 (hc0 : ¬cond0_0 i) (hc1 : cond0_1 i) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun _ => xs2 (ix2 0 0) + sqErrOf x0 x1 x4 x5 := by
  refine Eq.trans ?_ (out10_eq x0 x1 x4 x5 xs2)
  unfold out0_C_10
  rw [View.read_writes_eq_canon _ _ _ (cover0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz3]
  simp only [View.readAt_eq_ld, harg2.read_unread, harg3.read_unread, harg6.read_unread, harg7.read_unread, harg16.read_unread, View.ld_unit_zero (S := S8x192) hz, View.ld_unit_zero (S := S1x1) hz, View.readCov_unit_zero (S := S1x1) _ hz]

theorem outC_11 (hc0 : ¬cond0_0 i) (hc1 : cond0_1 i) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3
      = fun _ => xs3 (ix2 0 0) + sqErrOf x2 x3 x6 x7 := by
  refine Eq.trans ?_ (out11_eq x2 x3 x6 x7 xs3)
  unfold out0_C_11
  rw [View.read_writes_eq_canon _ _ _ (cover0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xs0 xs1 xs2 xs3)]
  unfold kernelRun0_C
  dsimp only
  sl_unfold_words
  rw [View.canon_unit_zero hz3]
  simp only [View.readAt_eq_ld, harg4.read_unread, harg5.read_unread, harg8.read_unread, harg9.read_unread, harg17.read_unread, View.ld_unit_zero (S := S8x192) hz, View.ld_unit_zero (S := S1x1) hz, View.readCov_unit_zero (S := S1x1) _ hz]

end Cert.FloorPlan.Tile

end
-- ==== Proof.KernelWalk.lean ====
/-
  The walk over the grid. Each core visits 64 consecutive tiles of the batch; after its visit to tile `t` the four
  accumulators hold the running totals, restarted at the core's first tile, of the tiles' sums — of intersection
  areas and of centre distances pair by pair, and of the squared position and size errors. So after a core's last
  tile they hold the core's totals, which that tile's visit copies to the outputs: the four result arrays of the
  region hold, at core `c'`, the totals over tiles `64 c' … 64 c' + 63`.
-/
import proofs.«101962_j64450279244066_1_alg».proof.Proof.KernelBlocks
import proofs.«101962_j64450279244066_1_alg».proof.Proof.KernelTile

set_option maxRecDepth 16384

noncomputable section

namespace Cert.FloorPlan.Walk

open Idealize.ShloMosaic Idealize.ShloMosaic.TcCoe Idealize.SL.Sem Idealize.ShloMosaic.ValueIdx Cert.FloorPlan
open Cert.KernelIdeal Cert.KernelIdeal.Gen Cert.KernelIdeal.GenP
open Cert.FloorPlan.Blocks
open Idealize.ShloMosaic.Pipeline (Dat)

variable (m : (ℓ : Loc nD τ sig) → Buf (Elt Ideal) ℓ)

/-- The four box arrays in core `c`'s memory. -/
abbrev P (c : Dev nD) : Boxes := boxes (m ((c : Thread nD τ).loc main_arg0))
abbrev S (c : Dev nD) : Boxes := boxes (m ((c : Thread nD τ).loc main_arg1))
abbrev TP (c : Dev nD) : Boxes := boxes (m ((c : Thread nD τ).loc main_arg2))
abbrev TS (c : Dev nD) : Boxes := boxes (m ((c : Thread nD τ).loc main_arg3))

/-! ## A tile's sums, from the blocks to the box arrays -/

/-- One coordinate's intersection length, from the blocks to the box arrays. -/
theorem len_x (c : Dev nD) (t : Fin cfg0.N) (b' : Fin 8) (i j : Fin 192) :
    Tile.lenOf (blk0 m c t) (blk2 m c t) b' i j = overlapLen (P m c) (S m c) 0 (tileRow t.val b') i j := by
  unfold Tile.lenOf overlapLen
  simp only [blk0_apply, blk2_apply]

theorem len_y (c : Dev nD) (t : Fin cfg0.N) (b' : Fin 8) (i j : Fin 192) :
    Tile.lenOf (blk1 m c t) (blk3 m c t) b' i j = overlapLen (P m c) (S m c) 1 (tileRow t.val b') i j := by
  unfold Tile.lenOf overlapLen
  simp only [blk1_apply, blk3_apply]

theorem tile_overlap (c : Dev nD) (t : Fin cfg0.N) (q : S192x192.Idx) :
    Tile.overlapOf (blk0 m c t) (blk1 m c t) (blk2 m c t) (blk3 m c t) q = tileOverlap (P m c) (S m c) t.val (q 0) (q 1) := by
  unfold Tile.overlapOf tileOverlap overlapArea
  exact Finset.sum_congr rfl fun b' _ => congrArg₂ (· * ·) (len_x m c t b' (q 0) (q 1)) (len_y m c t b' (q 0) (q 1))

/-- One row's centre distance, from the blocks to the box arrays. -/
theorem dist_term (c : Dev nD) (t : Fin cfg0.N) (b' : Fin 8) (i j : Fin 192) :
    Ideal.sqrt ((Tile.centreOf (blk0 m c t) (blk2 m c t) b' i - Tile.centreOf (blk0 m c t) (blk2 m c t) b' j)
        * (Tile.centreOf (blk0 m c t) (blk2 m c t) b' i - Tile.centreOf (blk0 m c t) (blk2 m c t) b' j)
      + (Tile.centreOf (blk1 m c t) (blk3 m c t) b' i - Tile.centreOf (blk1 m c t) (blk3 m c t) b' j)
        * (Tile.centreOf (blk1 m c t) (blk3 m c t) b' i - Tile.centreOf (blk1 m c t) (blk3 m c t) b' j))
      = centreDist (P m c) (S m c) (tileRow t.val b') i j := by
  unfold centreDist centre Tile.centreOf half
  simp only [blk0_apply, blk1_apply, blk2_apply, blk3_apply]

theorem tile_dist (c : Dev nD) (t : Fin cfg0.N) (q : S192x192.Idx) :
    Tile.distOf (blk0 m c t) (blk1 m c t) (blk2 m c t) (blk3 m c t) q = tileDist (P m c) (S m c) t.val (q 0) (q 1) := by
  unfold Tile.distOf tileDist
  exact Finset.sum_congr rfl fun b' _ => dist_term m c t b' (q 0) (q 1)

theorem tile_pos (c : Dev nD) (t : Fin cfg0.N) :
    Tile.sqErrOf (blk0 m c t) (blk1 m c t) (blk4 m c t) (blk5 m c t) = tileSqErr (P m c) (TP m c) t.val := by
  unfold Tile.sqErrOf tileSqErr sqErr
  refine Finset.sum_congr rfl fun b' _ => Finset.sum_congr rfl fun r _ => ?_
  simp only [blk0_apply, blk1_apply, blk4_apply, blk5_apply]

theorem tile_size (c : Dev nD) (t : Fin cfg0.N) :
    Tile.sqErrOf (blk2 m c t) (blk3 m c t) (blk6 m c t) (blk7 m c t) = tileSqErr (S m c) (TS m c) t.val := by
  unfold Tile.sqErrOf tileSqErr sqErr
  refine Finset.sum_congr rfl fun b' _ => Finset.sum_congr rfl fun r _ => ?_
  simp only [blk2_apply, blk3_apply, blk6_apply, blk7_apply]

/-! ## The four accumulators after each tile -/

/-- The tiles' sums as the accumulators hold them: a matrix over the pairs, or one cell. -/
def tOverlap (c : Dev nD) : ℕ → S192x192.Idx → EReal := fun t q => tileOverlap (P m c) (S m c) t (q 0) (q 1)
def tDist (c : Dev nD) : ℕ → S192x192.Idx → EReal := fun t q => tileDist (P m c) (S m c) t (q 0) (q 1)
def tPos (c : Dev nD) : ℕ → S1x1.Idx → EReal := fun t _ => tileSqErr (P m c) (TP m c) t
def tSize (c : Dev nD) : ℕ → S1x1.Idx → EReal := fun t _ => tileSqErr (S m c) (TS m c) t

theorem running_restart {α : Type} [Zero α] [Add α] (T : ℕ → α) (n : ℕ) (h : n % 64 = 0) :
    running T n = 0 + T n := by
  cases n with
  | zero => rfl
  | succ k => exact if_pos h

theorem running_go_on {α : Type} [Zero α] [Add α] (T : ℕ → α) (n : ℕ) (h : ¬n % 64 = 0) :
    running T n = running T (n - 1) + T n := by
  cases n with
  | zero => exact absurd (Nat.zero_mod 64) h
  | succ k => exact if_neg h

/-- What the accumulators hold after tile `n`: the running totals. -/
def Held (c : Dev nD) (n : ℕ) (hn : n < cfg0.N) : Prop :=
  (outsAt0 m c n hn).2.2.2.2.1 = running (tOverlap m c) n
  ∧ (outsAt0 m c n hn).2.2.2.2.2.1 = running (tDist m c) n
  ∧ (outsAt0 m c n hn).2.2.2.2.2.2.1 = running (tPos m c) n
  ∧ (outsAt0 m c n hn).2.2.2.2.2.2.2 = running (tSize m c) n

/-- One step of the walk: if the accumulators held the running totals after the tile before `t` (when there is
    one), they hold them after `t` — the body's three cases each add the tile's sums, the first tile of a core to zero. -/
theorem held_step (c : Dev nD) (t : Fin cfg0.N)
    (ih : ∀ h : t.val - 1 < cfg0.N, 0 < t.val → Held m c (t.val - 1) h) : Held m c t.val t.isLt := by
  have hN : t.val < 128 := lt_of_lt_of_eq t.isLt (show cfg0.N = 128 from N_0)
  unfold Held
  by_cases h0 : t.val % 64 = 0
  · have h1 : ¬t.val % 64 = 63 := by omega
    rw [outsAt0_A m c t h0 h1]
    dsimp only
    refine ⟨?_, ?_, ?_, ?_⟩
    · rw [running_restart _ t.val h0]
      refine (Tile.scratchA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))).trans ?_
      exact funext fun q => congrArg (fun z : EReal => 0 + z) (tile_overlap m c t q)
    · rw [running_restart _ t.val h0]
      refine (Tile.scratchA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))).trans ?_
      exact funext fun q => congrArg (fun z : EReal => 0 + z) (tile_dist m c t q)
    · rw [running_restart _ t.val h0]
      refine (Tile.scratchA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))).trans ?_
      exact funext fun q => congrArg (fun z : EReal => 0 + z) (tile_pos m c t)
    · rw [running_restart _ t.val h0]
      refine (Tile.scratchA_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h0) (fun h => h1 ((hcond0_1 t).mp h))).trans ?_
      exact funext fun q => congrArg (fun z : EReal => 0 + z) (tile_size m c t)
  · have hp := ih (Nat.lt_of_le_of_lt (Nat.sub_le _ _) t.isLt) (by omega)
    unfold Held at hp
    by_cases h1 : t.val % 64 = 63
    · rw [outsAt0_C m c t h0 h1]
      dsimp only
      refine ⟨?_, ?_, ?_, ?_⟩
      · rw [running_go_on _ t.val h0, ← hp.1]
        refine (Tile.scratchC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1)).trans ?_
        exact funext fun q => congrArg (fun z : EReal => _ + z) (tile_overlap m c t q)
      · rw [running_go_on _ t.val h0, ← hp.2.1]
        refine (Tile.scratchC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1)).trans ?_
        exact funext fun q => congrArg (fun z : EReal => _ + z) (tile_dist m c t q)
      · rw [running_go_on _ t.val h0, ← hp.2.2.1]
        refine (Tile.scratchC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1)).trans ?_
        exact funext fun q => congrArg (fun z : EReal => _ + z) (tile_pos m c t)
      · rw [running_go_on _ t.val h0, ← hp.2.2.2]
        refine (Tile.scratchC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1)).trans ?_
        exact funext fun q => congrArg (fun z : EReal => _ + z) (tile_size m c t)
    · rw [outsAt0_B m c t h0 h1]
      dsimp only
      refine ⟨?_, ?_, ?_, ?_⟩
      · rw [running_go_on _ t.val h0, ← hp.1]
        refine (Tile.scratchB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h1 ((hcond0_1 t).mp h))).trans ?_
        exact funext fun q => congrArg (fun z : EReal => _ + z) (tile_overlap m c t q)
      · rw [running_go_on _ t.val h0, ← hp.2.1]
        refine (Tile.scratchB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h1 ((hcond0_1 t).mp h))).trans ?_
        exact funext fun q => congrArg (fun z : EReal => _ + z) (tile_dist m c t q)
      · rw [running_go_on _ t.val h0, ← hp.2.2.1]
        refine (Tile.scratchB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h1 ((hcond0_1 t).mp h))).trans ?_
        exact funext fun q => congrArg (fun z : EReal => _ + z) (tile_pos m c t)
      · rw [running_go_on _ t.val h0, ← hp.2.2.2]
        refine (Tile.scratchB_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) (fun h => h1 ((hcond0_1 t).mp h))).trans ?_
        exact funext fun q => congrArg (fun z : EReal => _ + z) (tile_size m c t)

/-- After every tile the accumulators hold the running totals: by induction on the tile. -/
theorem held (c : Dev nD) : ∀ (n : ℕ) (hn : n < cfg0.N), Held m c n hn
  | 0, hn => held_step m c ⟨0, hn⟩ fun _ hpos => absurd hpos (Nat.lt_irrefl 0)
  | n + 1, hn => held_step m c ⟨n + 1, hn⟩ fun h _ => held c n h

/-! ## What the region leaves in its four result arrays -/

/-- Core `c'`'s part of each result: its total over its 64 tiles. -/
def G8 (c : Dev nD) : S2x192x192.Idx → EReal := fun g => coreTotal (fun t => tOverlap m c t (ix2 (g 1) (g 2))) (g 0).val
def G9 (c : Dev nD) : S2x192x192.Idx → EReal := fun g => coreTotal (fun t => tDist m c t (ix2 (g 1) (g 2))) (g 0).val
def G10 (c : Dev nD) : S2x1x1.Idx → EReal := fun g => coreTotal (fun t => tPos m c t (ix2 0 0)) (g 0).val
def G11 (c : Dev nD) : S2x1x1.Idx → EReal := fun g => coreTotal (fun t => tSize m c t (ix2 0 0)) (g 0).val

/-- At a core's last tile the running total, read at a point, is the core's total there. -/
theorem running_at_last {ι : Type} (T : ℕ → ι → EReal) (t : ℕ) (h : t % 64 = 63) (q : ι) :
    running T t q = coreTotal (fun s => T s q) (t / 64) := by
  obtain ⟨c', rfl⟩ : ∃ c', t = 64 * c' + 63 := ⟨t / 64, by omega⟩
  rw [running_apply, running_last]
  congr 1
  omega

/-- Every output window's index map sends point `t` to block `(t / 64, 0, 0)`. -/
theorem index_out : ∀ t : Fin cfg0.N,
    (win0_8.index t 0 = t.val / 64 ∧ win0_8.index t 1 = 0 ∧ win0_8.index t 2 = 0)
    ∧ (win0_9.index t 0 = t.val / 64 ∧ win0_9.index t 1 = 0 ∧ win0_9.index t 2 = 0)
    ∧ (win0_10.index t 0 = t.val / 64 ∧ win0_10.index t 1 = 0 ∧ win0_10.index t 2 = 0)
    ∧ (win0_11.index t 0 = t.val / 64 ∧ win0_11.index t 1 = 0 ∧ win0_11.index t 2 = 0) :=
  (by decide +kernel : ∀ t : Fin grid0.N, _)

/-- At a core's last tile, what output 8 receives is accumulator 0 after that tile. -/
theorem out8_eq (c : Dev nD) (t : Fin cfg0.N) (h0 : ¬t.val % 64 = 0) (h1 : t.val % 64 = 63) (q : S1x192x192.Idx) :
    (outsAt0 m c t.val t.isLt).1 q = (outsAt0 m c t.val t.isLt).2.2.2.2.1 (ix2 (q 1) (q 2)) := by
  rw [outsAt0_C m c t h0 h1]
  dsimp only
  rw [Tile.outC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1),
    Tile.scratchC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1)]

/-- The block a core's last tile writes back to result 8 is that core's block of the totals. -/
theorem flushed8 (c : Dev nD) (t : Fin cfg0.N) (hf : (cfg0.win 8).flush t = true) :
    (dats m 0 c).flushed 8 t = ((cfg0.win 8).blk t).view.read (Elt Ideal) (G8 m c) := by
  have h1 : t.val % 64 = 63 := (flush0_8 t).mp hf
  have h0 : ¬t.val % 64 = 0 := by omega
  have hN : t.val < 128 := lt_of_lt_of_eq t.isLt (show cfg0.N = 128 from N_0)
  have hi := (index_out t).1
  funext y
  have he : ((cfg0.win 8).blk t).view.emb y = ix3 (⟨t.val / 64, by omega⟩ : Fin 2) (y 1) (y 2) := by
    funext a
    apply Fin.ext
    have hy0 : (y 0).val < 1 := (y 0).isLt
    match a with
    | ⟨0, _⟩ => show win0_8.index t 0 * 1 + 1 * (y 0).val = t.val / 64; rw [hi.1]; omega
    | ⟨1, _⟩ => show win0_8.index t 1 * 192 + 1 * (y 1).val = (y 1).val; rw [hi.2.1]; omega
    | ⟨2, _⟩ => show win0_8.index t 2 * 192 + 1 * (y 2).val = (y 2).val; rw [hi.2.2]; omega
  rw [View.read_apply, he]
  show (dats m 0 c).after 8 t ((cfg0.win 8).xinj (grid0.coords t) y) = _
  rw [after0_8, out8_eq m c t h0 h1, (held m c t.val t.isLt).1, running_at_last _ t.val h1]
  rfl

/-- So result 8 ends holding the two cores' totals. -/
theorem final8 (c : Dev nD) : (dats m 0 c).arrAt 8 cfg0.N = G8 m c :=
  (dats m 0 c).arrAt_eq_of_cover 8 (G8 m c) (flushed8 m c) fun g => by
    have hg : (g 0).val < 2 := (g 0).isLt
    obtain ⟨t, ht⟩ : ∃ t : Fin cfg0.N, t.val = 64 * (g 0).val + 63 :=
      ⟨⟨64 * (g 0).val + 63, by rw [show cfg0.N = 128 from N_0]; omega⟩, rfl⟩
    refine ⟨t, (flush0_8 t).mpr (by omega), ?_⟩
    have hi := (index_out t).1
    have hq : t.val / 64 = (g 0).val := by omega
    show g ∈ ((View.whole main_v16_0).slice (win0_8.rect t)).set
    rw [View.set_slice_whole, Rect.mem_set_unit]
    intro a
    have h1 : (g 1).val < 192 := (g 1).isLt
    have h2 : (g 2).val < 192 := (g 2).isLt
    match a with
    | ⟨0, _⟩ => show win0_8.index t 0 * 1 ≤ (g 0).val ∧ (g 0).val < win0_8.index t 0 * 1 + 1; rw [hi.1]; omega
    | ⟨1, _⟩ => show win0_8.index t 1 * 192 ≤ (g 1).val ∧ (g 1).val < win0_8.index t 1 * 192 + 192; rw [hi.2.1]; omega
    | ⟨2, _⟩ => show win0_8.index t 2 * 192 ≤ (g 2).val ∧ (g 2).val < win0_8.index t 2 * 192 + 192; rw [hi.2.2]; omega

/-- At a core's last tile, what output 9 receives is accumulator 1 after that tile. -/
theorem out9_eq (c : Dev nD) (t : Fin cfg0.N) (h0 : ¬t.val % 64 = 0) (h1 : t.val % 64 = 63) (q : S1x192x192.Idx) :
    (outsAt0 m c t.val t.isLt).2.1 q = (outsAt0 m c t.val t.isLt).2.2.2.2.2.1 (ix2 (q 1) (q 2)) := by
  rw [outsAt0_C m c t h0 h1]
  dsimp only
  rw [Tile.outC_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1),
    Tile.scratchC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1)]

/-- The block a core's last tile writes back to result 9 is that core's block of the totals. -/
theorem flushed9 (c : Dev nD) (t : Fin cfg0.N) (hf : (cfg0.win 9).flush t = true) :
    (dats m 0 c).flushed 9 t = ((cfg0.win 9).blk t).view.read (Elt Ideal) (G9 m c) := by
  have h1 : t.val % 64 = 63 := (flush0_9 t).mp hf
  have h0 : ¬t.val % 64 = 0 := by omega
  have hN : t.val < 128 := lt_of_lt_of_eq t.isLt (show cfg0.N = 128 from N_0)
  have hi := (index_out t).2.1
  funext y
  have he : ((cfg0.win 9).blk t).view.emb y = ix3 (⟨t.val / 64, by omega⟩ : Fin 2) (y 1) (y 2) := by
    funext a
    apply Fin.ext
    have hy0 : (y 0).val < 1 := (y 0).isLt
    match a with
    | ⟨0, _⟩ => show win0_9.index t 0 * 1 + 1 * (y 0).val = t.val / 64; rw [hi.1]; omega
    | ⟨1, _⟩ => show win0_9.index t 1 * 192 + 1 * (y 1).val = (y 1).val; rw [hi.2.1]; omega
    | ⟨2, _⟩ => show win0_9.index t 2 * 192 + 1 * (y 2).val = (y 2).val; rw [hi.2.2]; omega
  rw [View.read_apply, he]
  show (dats m 0 c).after 9 t ((cfg0.win 9).xinj (grid0.coords t) y) = _
  rw [after0_9, out9_eq m c t h0 h1, (held m c t.val t.isLt).2.1, running_at_last _ t.val h1]
  rfl

/-- So result 9 ends holding the two cores' totals. -/
theorem final9 (c : Dev nD) : (dats m 0 c).arrAt 9 cfg0.N = G9 m c :=
  (dats m 0 c).arrAt_eq_of_cover 9 (G9 m c) (flushed9 m c) fun g => by
    have hg : (g 0).val < 2 := (g 0).isLt
    obtain ⟨t, ht⟩ : ∃ t : Fin cfg0.N, t.val = 64 * (g 0).val + 63 :=
      ⟨⟨64 * (g 0).val + 63, by rw [show cfg0.N = 128 from N_0]; omega⟩, rfl⟩
    refine ⟨t, (flush0_9 t).mpr (by omega), ?_⟩
    have hi := (index_out t).2.1
    have hq : t.val / 64 = (g 0).val := by omega
    show g ∈ ((View.whole main_v16_1).slice (win0_9.rect t)).set
    rw [View.set_slice_whole, Rect.mem_set_unit]
    intro a
    have h1 : (g 1).val < 192 := (g 1).isLt
    have h2 : (g 2).val < 192 := (g 2).isLt
    match a with
    | ⟨0, _⟩ => show win0_9.index t 0 * 1 ≤ (g 0).val ∧ (g 0).val < win0_9.index t 0 * 1 + 1; rw [hi.1]; omega
    | ⟨1, _⟩ => show win0_9.index t 1 * 192 ≤ (g 1).val ∧ (g 1).val < win0_9.index t 1 * 192 + 192; rw [hi.2.1]; omega
    | ⟨2, _⟩ => show win0_9.index t 2 * 192 ≤ (g 2).val ∧ (g 2).val < win0_9.index t 2 * 192 + 192; rw [hi.2.2]; omega

/-- At a core's last tile, what output 10 receives is accumulator 2 after that tile. -/
theorem out10_eq (c : Dev nD) (t : Fin cfg0.N) (h0 : ¬t.val % 64 = 0) (h1 : t.val % 64 = 63) (q : S1x1x1.Idx) :
    (outsAt0 m c t.val t.isLt).2.2.1 q = (outsAt0 m c t.val t.isLt).2.2.2.2.2.2.1 (ix2 0 0) := by
  rw [outsAt0_C m c t h0 h1]
  dsimp only
  rw [Tile.outC_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1),
    Tile.scratchC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1)]

/-- The block a core's last tile writes back to result 10 is that core's block of the totals. -/
theorem flushed10 (c : Dev nD) (t : Fin cfg0.N) (hf : (cfg0.win 10).flush t = true) :
    (dats m 0 c).flushed 10 t = ((cfg0.win 10).blk t).view.read (Elt Ideal) (G10 m c) := by
  have h1 : t.val % 64 = 63 := (flush0_10 t).mp hf
  have h0 : ¬t.val % 64 = 0 := by omega
  have hN : t.val < 128 := lt_of_lt_of_eq t.isLt (show cfg0.N = 128 from N_0)
  have hi := (index_out t).2.2.1
  funext y
  have he : ((cfg0.win 10).blk t).view.emb y = ix3 (⟨t.val / 64, by omega⟩ : Fin 2) (y 1) (y 2) := by
    funext a
    apply Fin.ext
    have hy0 : (y 0).val < 1 := (y 0).isLt
    match a with
    | ⟨0, _⟩ => show win0_10.index t 0 * 1 + 1 * (y 0).val = t.val / 64; rw [hi.1]; omega
    | ⟨1, _⟩ => show win0_10.index t 1 * 1 + 1 * (y 1).val = (y 1).val; rw [hi.2.1]; omega
    | ⟨2, _⟩ => show win0_10.index t 2 * 1 + 1 * (y 2).val = (y 2).val; rw [hi.2.2]; omega
  rw [View.read_apply, he]
  show (dats m 0 c).after 10 t ((cfg0.win 10).xinj (grid0.coords t) y) = _
  rw [after0_10, out10_eq m c t h0 h1, (held m c t.val t.isLt).2.2.1, running_at_last _ t.val h1]
  rfl

/-- So result 10 ends holding the two cores' totals. -/
theorem final10 (c : Dev nD) : (dats m 0 c).arrAt 10 cfg0.N = G10 m c :=
  (dats m 0 c).arrAt_eq_of_cover 10 (G10 m c) (flushed10 m c) fun g => by
    have hg : (g 0).val < 2 := (g 0).isLt
    obtain ⟨t, ht⟩ : ∃ t : Fin cfg0.N, t.val = 64 * (g 0).val + 63 :=
      ⟨⟨64 * (g 0).val + 63, by rw [show cfg0.N = 128 from N_0]; omega⟩, rfl⟩
    refine ⟨t, (flush0_10 t).mpr (by omega), ?_⟩
    have hi := (index_out t).2.2.1
    have hq : t.val / 64 = (g 0).val := by omega
    show g ∈ ((View.whole main_v16_2).slice (win0_10.rect t)).set
    rw [View.set_slice_whole, Rect.mem_set_unit]
    intro a
    have h1 : (g 1).val < 1 := (g 1).isLt
    have h2 : (g 2).val < 1 := (g 2).isLt
    match a with
    | ⟨0, _⟩ => show win0_10.index t 0 * 1 ≤ (g 0).val ∧ (g 0).val < win0_10.index t 0 * 1 + 1; rw [hi.1]; omega
    | ⟨1, _⟩ => show win0_10.index t 1 * 1 ≤ (g 1).val ∧ (g 1).val < win0_10.index t 1 * 1 + 1; rw [hi.2.1]; omega
    | ⟨2, _⟩ => show win0_10.index t 2 * 1 ≤ (g 2).val ∧ (g 2).val < win0_10.index t 2 * 1 + 1; rw [hi.2.2]; omega

/-- At a core's last tile, what output 11 receives is accumulator 3 after that tile. -/
theorem out11_eq (c : Dev nD) (t : Fin cfg0.N) (h0 : ¬t.val % 64 = 0) (h1 : t.val % 64 = 63) (q : S1x1x1.Idx) :
    (outsAt0 m c t.val t.isLt).2.2.2.1 q = (outsAt0 m c t.val t.isLt).2.2.2.2.2.2.2 (ix2 0 0) := by
  rw [outsAt0_C m c t h0 h1]
  dsimp only
  rw [Tile.outC_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1),
    Tile.scratchC_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2 (fun h => h0 ((hcond0_0 t).mp h)) ((hcond0_1 t).mpr h1)]

/-- The block a core's last tile writes back to result 11 is that core's block of the totals. -/
theorem flushed11 (c : Dev nD) (t : Fin cfg0.N) (hf : (cfg0.win 11).flush t = true) :
    (dats m 0 c).flushed 11 t = ((cfg0.win 11).blk t).view.read (Elt Ideal) (G11 m c) := by
  have h1 : t.val % 64 = 63 := (flush0_11 t).mp hf
  have h0 : ¬t.val % 64 = 0 := by omega
  have hN : t.val < 128 := lt_of_lt_of_eq t.isLt (show cfg0.N = 128 from N_0)
  have hi := (index_out t).2.2.2
  funext y
  have he : ((cfg0.win 11).blk t).view.emb y = ix3 (⟨t.val / 64, by omega⟩ : Fin 2) (y 1) (y 2) := by
    funext a
    apply Fin.ext
    have hy0 : (y 0).val < 1 := (y 0).isLt
    match a with
    | ⟨0, _⟩ => show win0_11.index t 0 * 1 + 1 * (y 0).val = t.val / 64; rw [hi.1]; omega
    | ⟨1, _⟩ => show win0_11.index t 1 * 1 + 1 * (y 1).val = (y 1).val; rw [hi.2.1]; omega
    | ⟨2, _⟩ => show win0_11.index t 2 * 1 + 1 * (y 2).val = (y 2).val; rw [hi.2.2]; omega
  rw [View.read_apply, he]
  show (dats m 0 c).after 11 t ((cfg0.win 11).xinj (grid0.coords t) y) = _
  rw [after0_11, out11_eq m c t h0 h1, (held m c t.val t.isLt).2.2.2, running_at_last _ t.val h1]
  rfl

/-- So result 11 ends holding the two cores' totals. -/
theorem final11 (c : Dev nD) : (dats m 0 c).arrAt 11 cfg0.N = G11 m c :=
  (dats m 0 c).arrAt_eq_of_cover 11 (G11 m c) (flushed11 m c) fun g => by
    have hg : (g 0).val < 2 := (g 0).isLt
    obtain ⟨t, ht⟩ : ∃ t : Fin cfg0.N, t.val = 64 * (g 0).val + 63 :=
      ⟨⟨64 * (g 0).val + 63, by rw [show cfg0.N = 128 from N_0]; omega⟩, rfl⟩
    refine ⟨t, (flush0_11 t).mpr (by omega), ?_⟩
    have hi := (index_out t).2.2.2
    have hq : t.val / 64 = (g 0).val := by omega
    show g ∈ ((View.whole main_v16_3).slice (win0_11.rect t)).set
    rw [View.set_slice_whole, Rect.mem_set_unit]
    intro a
    have h1 : (g 1).val < 1 := (g 1).isLt
    have h2 : (g 2).val < 1 := (g 2).isLt
    match a with
    | ⟨0, _⟩ => show win0_11.index t 0 * 1 ≤ (g 0).val ∧ (g 0).val < win0_11.index t 0 * 1 + 1; rw [hi.1]; omega
    | ⟨1, _⟩ => show win0_11.index t 1 * 1 ≤ (g 1).val ∧ (g 1).val < win0_11.index t 1 * 1 + 1; rw [hi.2.1]; omega
    | ⟨2, _⟩ => show win0_11.index t 2 * 1 ≤ (g 2).val ∧ (g 2).val < win0_11.index t 2 * 1 + 1; rw [hi.2.2]; omega

end Cert.FloorPlan.Walk

end
-- ==== Proof.KernelTail.lean ====
/-
  The host operations after the kernel region, as a function of what the region leaves: whatever the four output
  arrays hold (per core: a [192, 192] matrix of summed intersection areas, one of summed centre distances, and
  the two summed squared errors), the program adds the two cores' parts, divides by the batch size or by the
  number of coordinates, sums the pair terms under the strictly-upper-triangle mask (and, for the adjacency
  term, under that mask intersected with "the adjacency entry is positive"), and forms the weighted total.

  Each result is first written as one term of the arrays it depends on (the two cores' parts added and divided,
  the masked sum of a matrix, the weighted total of four scalars); each such term is then read at an index: a sum
  over the two cores is the sum over the leading coordinate, a sum into a scalar is the sum over every index, the
  initial value of every sum is zero, and a division by a constant is the mean the specification names. The
  weighted total is formed by the last eleven operations alone, which leave the four terms where they are.
-/
import proofs.«101962_j64450279244066_1_alg».proof.Proof.Patched.KernelIdeal.Frame
import proofs.«101962_j64450279244066_1_alg».proof.Proof.LossSpec
import proofs.«101962_j64450279244066_1_alg».proof.Proof.LossSums
import Idealize.ShloMosaic.Lib.StableHlo.Run
import Idealize.ShloMosaic.Lib.Pipeline.Frame
import Idealize.ShloMosaic.PureOps.Ideal.Laws

noncomputable section

namespace Cert.FloorPlan.Tail

open Idealize.ShloMosaic Idealize.ShloMosaic.TcCoe Idealize.SL.Sem Idealize.ShloMosaic.ValueIdx Cert.FloorPlan
open Cert.KernelIdeal Cert.KernelIdeal.Gen
open Idealize.ShloMosaic.StableHlo

/-- The host operations after the region, in order. -/
abbrev tailOps : List (HloOp τ sig (Elt Ideal)) :=
  List.flatten [hostOps1, hostOps1_1, hostOps1_2, hostOps1_3, hostOps1_4, hostOps1_5, hostOps1_6]

/-! ## The tail's terms, one function of the arrays each -/

/-- The mask of the pairs `i < j`, as the program builds it. -/
def upperMask : S192x192.Idx → BitVec 1 :=
  select
    (cmpi .sge (addi (iotaInDim S192x192 32 0) (broadcastInDim S192x192 ![] bcast_S_S192x192 (constantI S_ 32 0#32)))
      (iotaInDim S192x192 32 1))
    (broadcastInDim S192x192 ![] bcast_S_S192x192 (constantI S_ 1 0#1))
    (broadcastInDim S192x192 ![] bcast_S_S192x192 (constantI S_ 1 1#1))

/-- The mask of the pairs `i < j` whose adjacency entry is positive, as the program builds it. -/
def adjMask (a : S1x192x192.Idx → BitVec 32) : S192x192.Idx → BitVec 1 :=
  andi upperMask
    (cmpi .sgt (shapeCast S192x192 a shapeCasts_S1x192x192_S192x192)
      (broadcastInDim S192x192 ![] bcast_S_S192x192 (constantI S_ 32 0#32)))

/-- The two cores' scalar parts added up and divided by the number of coordinates. -/
def coordMean (x : S2x1x1.Idx → EReal) : S_.Idx → EReal :=
  Host.divf (F := Ideal) (φ := .f32)
    (Host.reduceAdd (F := Ideal) (φ := .f32) x (constant (F := Ideal) S_ .f32 0x00000000#32) reducesTo_S2x1x1_S_d0_1_2 h_S_)
    (constant (F := Ideal) S_ .f32 0x48C00000#32)

/-- The two cores' matrices added up entry by entry and divided by the batch size. -/
def batchMean (x : S2x192x192.Idx → EReal) : S192x192.Idx → EReal :=
  Host.divf (F := Ideal) (φ := .f32)
    (Host.reduceAdd (F := Ideal) (φ := .f32) x (constant (F := Ideal) S_ .f32 0x00000000#32) reducesTo_S2x192x192_S192x192_d0 h_S_)
    (broadcastInDim S192x192 ![] bcast_S_S192x192 (constant (F := Ideal) S_ .f32 0x44800000#32))

/-- The sum of a matrix's entries where the mask holds (zero put elsewhere). -/
def maskedSum (mask : S192x192.Idx → BitVec 1) (f : S192x192.Idx → EReal) : S_.Idx → EReal :=
  Host.reduceAdd (F := Ideal) (φ := .f32)
    (select mask f (broadcastInDim S192x192 ![] bcast_S_S192x192 (id (constant (F := Ideal) S_ .f32 0x00000000#32))))
    (constant (F := Ideal) S_ .f32 0x00000000#32) reducesTo_S192x192_S_d0_1 h_S_

/-- The weighted total of the four terms, added left to right. -/
def weighted (pos size ovl adj : S_.Idx → EReal) : S_.Idx → EReal :=
  addf (F := Ideal) (φ := .f32)
    (addf (F := Ideal) (φ := .f32)
      (addf (F := Ideal) (φ := .f32) (mulf (F := Ideal) (φ := .f32) (constant (F := Ideal) S_ .f32 0x3F800000#32) pos)
        (mulf (F := Ideal) (φ := .f32) (constant (F := Ideal) S_ .f32 0x3F800000#32) size))
      (mulf (F := Ideal) (φ := .f32) (constant (F := Ideal) S_ .f32 0x3F000000#32) ovl))
    (mulf (F := Ideal) (φ := .f32) (constant (F := Ideal) S_ .f32 0x3E99999A#32) adj)

/-! ## The terms read at an index -/

theorem coordMean_apply (x : S2x1x1.Idx → EReal) (i : S_.Idx) : coordMean x i = meanOfCoords (∑ q : S2x1x1.Idx, x q) := by
  unfold coordMean
  simp only [Host.divf, Host.reduceAdd, Ideal.hostReduceAdd_def, Ideal.hostDivf_def]
  rw [Ideal.hostReduceAdd_total reducesTo_S2x1x1_S_d0_1_2 (fun b => b.elim0)]
  show Ideal.div (Ideal.ofBits .f32 0x00000000#32 + _) (Ideal.ofBits .f32 0x48C00000#32) = _
  rw [Ideal.ofBits_zero_f32, zero_add]
  rfl

/-- The index the sum over the cores reads: the core, then the pair. -/
theorem lift_cores (h : S2x192x192.Reduces [0] S192x192) (p : S192x192.Idx) (k : Fin 2) :
    h.lift p k = ix3 k (p 0) (p 1) :=
  funext fun a => Fin.ext (by match a with | ⟨0, _⟩ => rfl | ⟨1, _⟩ => rfl | ⟨2, _⟩ => rfl)

theorem batchMean_apply (x : S2x192x192.Idx → EReal) (p : S192x192.Idx) :
    batchMean x p = meanOfBatch (∑ c' : Fin 2, x (ix3 c' (p 0) (p 1))) := by
  unfold batchMean
  simp only [Host.divf, Host.reduceAdd, Ideal.hostReduceAdd_def, Ideal.hostDivf_def]
  rw [Ideal.hostReduceAdd_single reducesTo_S2x192x192_S192x192_d0 (by decide)]
  show Ideal.div (Ideal.ofBits .f32 0x00000000#32 + _) (Ideal.ofBits .f32 0x44800000#32) = _
  rw [Ideal.ofBits_zero_f32, zero_add]
  unfold meanOfBatch
  refine congrArg (Ideal.div · _) (Finset.sum_congr rfl fun k _ => ?_)
  exact congrArg x (lift_cores _ p k)

theorem maskedSum_apply (mask : S192x192.Idx → BitVec 1) (f : S192x192.Idx → EReal) (i : S_.Idx) :
    maskedSum mask f i = maskedTotal mask f := by
  unfold maskedSum
  simp only [Host.reduceAdd, Ideal.hostReduceAdd_def]
  rw [Ideal.hostReduceAdd_total reducesTo_S192x192_S_d0_1 (fun b => b.elim0)]
  show Ideal.ofBits .f32 0x00000000#32 + _ = _
  rw [Ideal.ofBits_zero_f32, zero_add]
  rfl

theorem weighted_apply (pos size ovl adj : S_.Idx → EReal) (i : S_.Idx) :
    weighted pos size ovl adj i = totalLoss (pos i) (size i) (ovl i) (adj i) := rfl

theorem batchMean_eq (x : S2x192x192.Idx → EReal) :
    batchMean x = fun p => meanOfBatch (∑ c' : Fin 2, x (ix3 c' (p 0) (p 1))) := funext (batchMean_apply x)

/-! ## What the operations leave at the five results -/

variable (W : Valuation τ sig (Elt Ideal))

theorem after_v21 :
    StableHlo.after tailOps W (Proc.devRef .tc main_v21) = coordMean (W (Proc.devRef .tc main_v16_2)) := by
  simp only [tailOps, hostOps1, hostOps1_1, hostOps1_2, hostOps1_3, hostOps1_4, hostOps1_5, hostOps1_6,
    List.flatten_cons, List.flatten_nil, List.append_nil, List.cons_append, List.nil_append]
  after_results
  rfl

theorem after_v22 :
    StableHlo.after tailOps W (Proc.devRef .tc main_v22) = coordMean (W (Proc.devRef .tc main_v16_3)) := by
  simp only [tailOps, hostOps1, hostOps1_1, hostOps1_2, hostOps1_3, hostOps1_4, hostOps1_5, hostOps1_6,
    List.flatten_cons, List.flatten_nil, List.append_nil, List.cons_append, List.nil_append]
  after_results
  rfl

set_option maxHeartbeats 3200000 in
theorem after_v34 :
    StableHlo.after tailOps W (Proc.devRef .tc main_v34)
      = maskedSum upperMask (batchMean (W (Proc.devRef .tc main_v16_0))) := by
  simp only [tailOps, hostOps1, hostOps1_1, hostOps1_2, hostOps1_3, hostOps1_4, hostOps1_5, hostOps1_6,
    List.flatten_cons, List.flatten_nil, List.append_nil, List.cons_append, List.nil_append]
  after_results
  simp only [TRef.ofBuf, TRef.toBuf, cast_eq]
  rfl

set_option maxHeartbeats 6400000 in
theorem after_v36 :
    StableHlo.after tailOps W (Proc.devRef .tc main_v36)
      = maskedSum (adjMask (W (Proc.devRef .tc main_arg4))) (batchMean (W (Proc.devRef .tc main_v16_1))) := by
  simp only [tailOps, hostOps1, hostOps1_1, hostOps1_2, hostOps1_3, hostOps1_4, hostOps1_5, hostOps1_6,
    List.flatten_cons, List.flatten_nil, List.append_nil, List.cons_append, List.nil_append]
  after_results
  simp only [TRef.ofBuf, TRef.toBuf, cast_eq]
  rfl

theorem position :
    StableHlo.after tailOps W (Proc.devRef .tc main_v21)
      = fun _ => meanOfCoords (∑ q : S2x1x1.Idx, W (Proc.devRef .tc main_v16_2) q) :=
  (after_v21 W).trans (funext fun i => coordMean_apply _ i)

theorem size :
    StableHlo.after tailOps W (Proc.devRef .tc main_v22)
      = fun _ => meanOfCoords (∑ q : S2x1x1.Idx, W (Proc.devRef .tc main_v16_3) q) :=
  (after_v22 W).trans (funext fun i => coordMean_apply _ i)

theorem overlap :
    StableHlo.after tailOps W (Proc.devRef .tc main_v34)
      = fun _ => maskedTotal upperMask fun p => meanOfBatch (∑ c' : Fin 2, W (Proc.devRef .tc main_v16_0) (ix3 c' (p 0) (p 1))) :=
  (after_v34 W).trans (funext fun i => (maskedSum_apply _ _ i).trans (congrArg (maskedTotal upperMask) (batchMean_eq _)))

theorem adjacency :
    StableHlo.after tailOps W (Proc.devRef .tc main_v36)
      = fun _ => maskedTotal (adjMask (W (Proc.devRef .tc main_arg4))) fun p =>
          meanOfBatch (∑ c' : Fin 2, W (Proc.devRef .tc main_v16_1) (ix3 c' (p 0) (p 1))) :=
  (after_v36 W).trans (funext fun i => (maskedSum_apply _ _ i).trans (congrArg (maskedTotal _) (batchMean_eq _)))

/-! ## The weighted total: the last eleven operations, apart -/

/-- The operations that form the weighted total from the four terms. -/
abbrev sumOps : List (HloOp τ sig (Elt Ideal)) := hostOps1_6.drop 2

/-- The operations before them. -/
abbrev headOps : List (HloOp τ sig (Elt Ideal)) :=
  List.flatten [hostOps1, hostOps1_1, hostOps1_2, hostOps1_3, hostOps1_4, hostOps1_5] ++ hostOps1_6.take 2

theorem tailOps_split : tailOps = headOps ++ sumOps := by
  simp only [tailOps, headOps, sumOps, List.flatten_cons, List.flatten_nil, List.append_nil, List.append_assoc,
    List.take_append_drop]

theorem after_split (V : Valuation τ sig (Elt Ideal)) :
    StableHlo.after tailOps V = StableHlo.after sumOps (StableHlo.after headOps V) := by
  rw [tailOps_split, StableHlo.after_append]

theorem sum_v21 (V : Valuation τ sig (Elt Ideal)) :
    StableHlo.after sumOps V (Proc.devRef .tc main_v21) = V (Proc.devRef .tc main_v21) := by
  simp only [sumOps, hostOps1_6, List.drop_succ_cons, List.drop_zero]
  after_results

theorem sum_v22 (V : Valuation τ sig (Elt Ideal)) :
    StableHlo.after sumOps V (Proc.devRef .tc main_v22) = V (Proc.devRef .tc main_v22) := by
  simp only [sumOps, hostOps1_6, List.drop_succ_cons, List.drop_zero]
  after_results

theorem sum_v34 (V : Valuation τ sig (Elt Ideal)) :
    StableHlo.after sumOps V (Proc.devRef .tc main_v34) = V (Proc.devRef .tc main_v34) := by
  simp only [sumOps, hostOps1_6, List.drop_succ_cons, List.drop_zero]
  after_results

theorem sum_v36 (V : Valuation τ sig (Elt Ideal)) :
    StableHlo.after sumOps V (Proc.devRef .tc main_v36) = V (Proc.devRef .tc main_v36) := by
  simp only [sumOps, hostOps1_6, List.drop_succ_cons, List.drop_zero]
  after_results

theorem sum_v43 (V : Valuation τ sig (Elt Ideal)) :
    StableHlo.after sumOps V (Proc.devRef .tc main_v43)
      = weighted (V (Proc.devRef .tc main_v21)) (V (Proc.devRef .tc main_v22)) (V (Proc.devRef .tc main_v34))
          (V (Proc.devRef .tc main_v36)) := by
  simp only [sumOps, hostOps1_6, List.drop_succ_cons, List.drop_zero]
  after_results
  rfl

theorem total :
    StableHlo.after tailOps W (Proc.devRef .tc main_v43)
      = fun _ => totalLoss (meanOfCoords (∑ q : S2x1x1.Idx, W (Proc.devRef .tc main_v16_2) q))
          (meanOfCoords (∑ q : S2x1x1.Idx, W (Proc.devRef .tc main_v16_3) q))
          (maskedTotal upperMask fun p => meanOfBatch (∑ c' : Fin 2, W (Proc.devRef .tc main_v16_0) (ix3 c' (p 0) (p 1))))
          (maskedTotal (adjMask (W (Proc.devRef .tc main_arg4))) fun p =>
            meanOfBatch (∑ c' : Fin 2, W (Proc.devRef .tc main_v16_1) (ix3 c' (p 0) (p 1)))) := by
  have e := after_split W
  have h21 := ((sum_v21 _).symm.trans (congrFun e.symm (Proc.devRef .tc main_v21))).trans (position W)
  have h22 := ((sum_v22 _).symm.trans (congrFun e.symm (Proc.devRef .tc main_v22))).trans (size W)
  have h34 := ((sum_v34 _).symm.trans (congrFun e.symm (Proc.devRef .tc main_v34))).trans (overlap W)
  have h36 := ((sum_v36 _).symm.trans (congrFun e.symm (Proc.devRef .tc main_v36))).trans (adjacency W)
  rw [e, sum_v43, h21, h22, h34, h36]
  rfl

end Cert.FloorPlan.Tail

end
-- ==== Proof.KernelRun.lean ====
/-
  The idealized kernel's run, read: its five results are the loss's terms. The region leaves the two cores'
  totals in its four result arrays; the host operations after it add the two cores' parts — which makes each
  total the sum over the whole batch, tile by tile — and form the means, the masked pair sums and the weighted
  total exactly as the specification spells them.
-/
import proofs.«101962_j64450279244066_1_alg».proof.Proof.KernelWalk
import proofs.«101962_j64450279244066_1_alg».proof.Proof.KernelTail

noncomputable section

namespace Cert.FloorPlan.Run

open Idealize.ShloMosaic Idealize.ShloMosaic.TcCoe Idealize.SL.Sem Idealize.ShloMosaic.ValueIdx Cert.FloorPlan
open Cert.KernelIdeal Cert.KernelIdeal.Gen Cert.KernelIdeal.GenP
open Cert.FloorPlan.Walk

variable (m : (ℓ : Loc nD τ sig) → Buf (Elt Ideal) ℓ) (ρ : Dev nD → PrngReg)

/-- Core `c`'s buffers as the region leaves them: its arrays at their final contents, the rest as it found them. -/
abbrev exitVal (c : Dev nD) : Valuation τ sig (Elt Ideal) :=
  Pipeline.withArrays spec0 c (V0 m c) fun w => (dats m 0 c).arrAt w cfg0.N

theorem exit8 (c : Dev nD) : exitVal m c (Proc.devRef .tc main_v16_0) = G8 m c :=
  (Pipeline.withArrays_arr spec0 launch0.win.arr_inj c _ _ 8).trans (final8 m c)

theorem exit9 (c : Dev nD) : exitVal m c (Proc.devRef .tc main_v16_1) = G9 m c :=
  (Pipeline.withArrays_arr spec0 launch0.win.arr_inj c _ _ 9).trans (final9 m c)

theorem exit10 (c : Dev nD) : exitVal m c (Proc.devRef .tc main_v16_2) = G10 m c :=
  (Pipeline.withArrays_arr spec0 launch0.win.arr_inj c _ _ 10).trans (final10 m c)

theorem exit11 (c : Dev nD) : exitVal m c (Proc.devRef .tc main_v16_3) = G11 m c :=
  (Pipeline.withArrays_arr spec0 launch0.win.arr_inj c _ _ 11).trans (final11 m c)

theorem exit_adj (c : Dev nD) : exitVal m c (Proc.devRef .tc main_arg4) = m ((c : Thread nD τ).loc main_arg4) :=
  (Pipeline.withArrays_of_ne _ c (V0 m c) _ main_arg4 (by exact (by decide : ∀ w, Pipeline.arrRef spec0 w ≠ main_arg4))).trans
    (V_main_arg4 m c)

/-! ## The two cores' parts add up to the batch sums -/

theorem cells_pos (c : Dev nD) : ∑ q : S2x1x1.Idx, G10 m c q = sumSqErr (P m c) (TP m c) := by
  rw [sum_idx3]
  simp only [Finset.univ_unique, Finset.sum_singleton]
  exact sum_cores_sqErr (P m c) (TP m c)

theorem cells_size (c : Dev nD) : ∑ q : S2x1x1.Idx, G11 m c q = sumSqErr (S m c) (TS m c) := by
  rw [sum_idx3]
  simp only [Finset.univ_unique, Finset.sum_singleton]
  exact sum_cores_sqErr (S m c) (TS m c)

theorem pairs_overlap (c : Dev nD) (p : Pairs.Idx) :
    ∑ c' : Fin 2, G8 m c (ix3 c' (p 0) (p 1)) = sumOverlap (P m c) (S m c) (p 0) (p 1) :=
  sum_cores_overlap (P m c) (S m c) (p 0) (p 1)

theorem pairs_dist (c : Dev nD) (p : Pairs.Idx) :
    ∑ c' : Fin 2, G9 m c (ix3 c' (p 0) (p 1)) = sumDist (P m c) (S m c) (p 0) (p 1) :=
  sum_cores_dist (P m c) (S m c) (p 0) (p 1)

/-! ## The five results -/

/-- The pair mask of the adjacency term, from core `c`'s adjacency argument. -/
abbrev adj (c : Dev nD) : Pairs.Idx → BitVec 1 := Tail.adjMask (m ((c : Thread nD τ).loc main_arg4))

theorem val_position (c : Dev nD) :
    StableHlo.after Tail.tailOps (exitVal m c) (Proc.devRef .tc main_v21) = fun _ => positionLoss (P m c) (TP m c) := by
  rw [Tail.position, exit10, cells_pos]; rfl

theorem val_size (c : Dev nD) :
    StableHlo.after Tail.tailOps (exitVal m c) (Proc.devRef .tc main_v22) = fun _ => sizeLoss (S m c) (TS m c) := by
  rw [Tail.size, exit11, cells_size]; rfl

theorem val_overlap (c : Dev nD) :
    StableHlo.after Tail.tailOps (exitVal m c) (Proc.devRef .tc main_v34) = fun _ => overlapPenalty Tail.upperMask (P m c) (S m c) := by
  rw [Tail.overlap, exit8]
  simp only [pairs_overlap]
  rfl

theorem val_adjacency (c : Dev nD) :
    StableHlo.after Tail.tailOps (exitVal m c) (Proc.devRef .tc main_v36) = fun _ => adjacencyLoss (adj m c) (P m c) (S m c) := by
  rw [Tail.adjacency, exit9, exit_adj]
  simp only [pairs_dist]
  rfl

theorem val_total (c : Dev nD) :
    StableHlo.after Tail.tailOps (exitVal m c) (Proc.devRef .tc main_v43)
      = fun _ => totalLoss (positionLoss (P m c) (TP m c)) (sizeLoss (S m c) (TS m c))
          (overlapPenalty Tail.upperMask (P m c) (S m c)) (adjacencyLoss (adj m c) (P m c) (S m c)) := by
  rw [Tail.total, exit8, exit9, exit10, exit11, exit_adj, cells_pos, cells_size]
  simp only [pairs_overlap, pairs_dist]
  rfl

/-- Every weakly fair execution of the idealized kernel program terminates with the five results at the loss's
    terms and the arguments unchanged. -/
theorem run : θ_run defs (onTc (τ := τ) (main (F := Ideal))) ⟨m, fun _ => 0, ρ⟩ (fun r => ∀ c : Dev nD,
      r.2.mem ((c.tc : Thread nD τ).loc main_v43) = (fun _ => totalLoss (positionLoss (P m c) (TP m c)) (sizeLoss (S m c) (TS m c))
          (overlapPenalty Tail.upperMask (P m c) (S m c)) (adjacencyLoss (adj m c) (P m c) (S m c)))
      ∧ r.2.mem ((c.tc : Thread nD τ).loc main_v21) = (fun _ => positionLoss (P m c) (TP m c))
      ∧ r.2.mem ((c.tc : Thread nD τ).loc main_v22) = (fun _ => sizeLoss (S m c) (TS m c))
      ∧ r.2.mem ((c.tc : Thread nD τ).loc main_v34) = (fun _ => overlapPenalty Tail.upperMask (P m c) (S m c))
      ∧ r.2.mem ((c.tc : Thread nD τ).loc main_v36) = (fun _ => adjacencyLoss (adj m c) (P m c) (S m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v43 (Pipeline.mem_restRefs_of main_v43 (by decide) (by decide))).trans (val_total m c),
     ((h c).2 main_v21 (Pipeline.mem_restRefs_of main_v21 (by decide) (by decide))).trans (val_position m c),
     ((h c).2 main_v22 (Pipeline.mem_restRefs_of main_v22 (by decide) (by decide))).trans (val_size m c),
     ((h c).2 main_v34 (Pipeline.mem_restRefs_of main_v34 (by decide) (by decide))).trans (val_overlap m c),
     ((h c).2 main_v36 (Pipeline.mem_restRefs_of main_v36 (by decide) (by decide))).trans (val_adjacency m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.FloorPlan.Run

end
-- ==== Proof.lean ====
/-
  The floor-plan loss kernel against its jnp reference, over the extended reals.

  Both programs compute, from four box arrays (positions, sizes and their targets: batch 1024, 192 rooms, two
  coordinates) and an adjacency matrix, five numbers: the mean squared position and size errors, the mean over the
  batch of the pairwise intersection areas summed over the pairs `i < j`, the mean over the batch of the pairwise
  centre distances summed over the adjacent pairs `i < j`, and a fixed linear combination of the four.
  The reference takes each mean over the whole batch at once. The kernel cuts the batch into 128 tiles of 8 rows,
  lets each of two cores accumulate its 64 tiles' sums in four running totals, and adds the two cores' totals on the
  host. Addition on the extended reals is commutative and associative, so the two arrangements of each batch sum
  agree (`LossSums`); the pointwise differences — `max a 0` against `max 0 a`, half a size as a product with 1/2
  against a quotient by 2, a square root taken under the adjacency mask or masked afterwards — are equalities on
  every extended real, so the finiteness of the inputs is never used.

  The modules: `LossSpec` states the five numbers once; `RefLoss` reads the reference's results as those formulas;
  `KernelBlocks`, `KernelTile`, `KernelWalk` read the kernel region — a tile's blocks, what one run of the body
  adds, the walk over the grid — and `KernelTail`, `KernelRun` the host operations after it and the whole run. The
  two word-level and idealized kernel frames are the frame certificates of the two programs; the reference's frame is
  its run with the results dropped; the idealization rewrote nothing.
-/
import proofs.«101962_j64450279244066_1_alg».proof.Defs
import proofs.«101962_j64450279244066_1_alg».proof.Proof.Gen.Kernel
import proofs.«101962_j64450279244066_1_alg».proof.Proof.Gen.Kernel.Skeleton
import proofs.«101962_j64450279244066_1_alg».proof.Proof.Gen.Kernel.Launch
import proofs.«101962_j64450279244066_1_alg».proof.Proof.Gen.Kernel.Points
import proofs.«101962_j64450279244066_1_alg».proof.Proof.Patched.Kernel.Frame
import proofs.«101962_j64450279244066_1_alg».proof.Proof.Gen.KernelIdeal
import proofs.«101962_j64450279244066_1_alg».proof.Proof.Gen.KernelIdeal.Skeleton
import proofs.«101962_j64450279244066_1_alg».proof.Proof.Gen.KernelIdeal.Launch
import proofs.«101962_j64450279244066_1_alg».proof.Proof.Gen.KernelIdeal.Points
import proofs.«101962_j64450279244066_1_alg».proof.Proof.Patched.KernelIdeal.Frame
import proofs.«101962_j64450279244066_1_alg».proof.Proof.Gen.ReferenceIdeal
import proofs.«101962_j64450279244066_1_alg».proof.Proof.Gen.ReferenceIdeal.Run
import proofs.«101962_j64450279244066_1_alg».proof.Proof.Gen.ReferenceIdeal.Read
import proofs.«101962_j64450279244066_1_alg».proof.Proof.Gen.Pre_finite_inputs
import proofs.«101962_j64450279244066_1_alg».proof.Proof.RefLoss
import proofs.«101962_j64450279244066_1_alg».proof.Proof.KernelRun
import Idealize.ShloMosaic.Adequacy
import Idealize.ShloMosaic.Init

noncomputable section

namespace Cert.Proof

open Idealize.ShloMosaic Idealize.ShloMosaic.TcCoe Idealize.SL.Sem Cert.FloorPlan

/-! ## The two programs build the same pair masks -/

/-- The mask of the pairs `i < j`: the same operations in both programs. -/
theorem mask_upper : Cert.ReferenceIdeal.Read.val_main_v9 (F := Ideal) = Tail.upperMask := rfl

/-- The mask of the adjacent pairs `i < j`: the same operations in both programs, of the same adjacency array. -/
theorem mask_adj (a : Cert.KernelIdeal.S1x192x192.Idx → BitVec 32) :
    Cert.ReferenceIdeal.Read.val_main_v75 (F := Ideal) a = Tail.adjMask a := rfl

/-! ## The claims -/

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run, the results dropped. -/
theorem frame_reference : Cert.frame_ReferenceIdeal := fun m ρ _ =>
  (θ_run Cert.ReferenceIdeal.defs _ _).mono (fun _ h c => (h c).2.2.2.2.2)
    (Cert.ReferenceIdeal.Value.run (F := Ideal) m ρ)

/-- From memories that agree on the arguments both programs end with the five terms of the loss: the kernel by
    its run read tile by tile, the reference by its run read operation by operation. -/
theorem algebraic : Cert.algebraic_KernelIdeal_ReferenceIdeal := by
  intro m ρ m' ρ' _ hagree
  refine ⟨_, _, _, _, _, Cert.FloorPlan.Run.run m ρ, ?_⟩
  refine (θ_run Cert.ReferenceIdeal.defs _ _).mono (fun _ h c => ?_)
    (Cert.ReferenceIdeal.Value.run (F := Ideal) m' ρ')
  obtain ⟨a0, a1, a2, a3, a4⟩ := hagree c
  obtain ⟨h90, h3, h7, h51, h83, hargs⟩ := h c
  refine ⟨h90.trans ?_, h3.trans ?_, h7.trans ?_, h51.trans ?_, h83.trans ?_, hargs⟩
  · rw [Cert.ReferenceIdeal.Read.val_main_v90_eq, a0, a1, a2, a3, a4, Ref.total, mask_upper, mask_adj]
    rfl
  · rw [Cert.ReferenceIdeal.Read.val_main_v3_eq, a0, a2, Ref.position]
    rfl
  · rw [Cert.ReferenceIdeal.Read.val_main_v7_eq, a1, a3, Ref.size]
    rfl
  · rw [Cert.ReferenceIdeal.Read.val_main_v51_eq, a0, a1, Ref.overlap, mask_upper]
    rfl
  · rw [Cert.ReferenceIdeal.Read.val_main_v83_eq, a0, a1, a4, Ref.adjacency, mask_adj]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
